-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S200000x256 : Shape := ⟨2, ![200000, 256]⟩
abbrev S1000x256 : Shape := ⟨2, ![1000, 256]⟩
abbrev S256 : Shape := ⟨1, ![256]⟩
abbrev S200000 : Shape := ⟨1, ![200000]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S200000x256 : S_.BroadcastsInDim S200000x256 (![] : Fin 0 → Fin S200000x256.rank)
  reducesTo_S200000x256_S_d0_1 : S200000x256.ReducesTo [0, 1] S_
  bcast_S_S1000x256 : S_.BroadcastsInDim S1000x256 (![] : Fin 0 → Fin S1000x256.rank)
  reducesTo_S1000x256_S_d0_1 : S1000x256.ReducesTo [0, 1] S_

variable [Facts]

def fn {F : FTy → Type} [FloatOps F] (main_arg0 : FVec F S256x256 .f32) (main_arg1 : FVec F S200000x256 .f32) (main_arg2 : FVec F S1000x256 .f32) (main_arg3 : IVec S256 32) (main_arg4 : IVec S200000 32) (main_arg5 : IVec S256 32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S1000x256 .f32 := Host.absf main_arg2
  let main_cst_2 : FVec F S_ .f32 := constant S_ .f32 0x7F800000#32
  let main_v10 : FVec F S1000x256 .f32 := broadcastInDim S1000x256 ![] bcast_S_S1000x256 main_cst_2
  let main_v11 : IVec S1000x256 1 := cmpf .olt main_v9 main_v10
  let main_c_3 : IVec S_ 1 := constantI S_ 1 1#1
  let main_v12 : IVec S_ 1 := (fun x v => Host.reduce IntOp.andi x v reducesTo_S1000x256_S_d0_1 h_S_) main_v11 main_c_3
  let main_v13 : IVec S_ 1 := andi main_v8 main_v12
  main_v13
-- ==== Kernel.lean ====
abbrev S256x256 : Shape := ⟨2, ![256, 256]⟩
abbrev S200000x256 : Shape := ⟨2, ![200000, 256]⟩
abbrev S1000x256 : Shape := ⟨2, ![1000, 256]⟩
abbrev S256 : Shape := ⟨1, ![256]⟩
abbrev S200000 : Shape := ⟨1, ![200000]⟩
abbrev S256x1000 : Shape := ⟨2, ![256, 1000]⟩
abbrev S_ : Shape := ⟨0, ![]⟩
abbrev S256x1 : Shape := ⟨2, ![256, 1]⟩
abbrev S2x100000x256 : Shape := ⟨3, ![2, 100000, 256]⟩
abbrev S2x100000x1 : Shape := ⟨3, ![2, 100000, 1]⟩
abbrev S2x1000x256 : Shape := ⟨3, ![2, 1000, 256]⟩
abbrev S2x1x1000 : Shape := ⟨3, ![2, 1, 1000]⟩
abbrev S1x1000x256 : Shape := ⟨3, ![1, 1000, 256]⟩
abbrev S1x1x1000 : Shape := ⟨3, ![1, 1, 1000]⟩
abbrev S1x1000 : Shape := ⟨2, ![1, 1000]⟩
abbrev S1000x1 : Shape := ⟨2, ![1000, 1]⟩
abbrev S1000 : Shape := ⟨1, ![1000]⟩
abbrev S1x4000x256 : Shape := ⟨3, ![1, 4000, 256]⟩
abbrev S1x4000x1 : Shape := ⟨3, ![1, 4000, 1]⟩
abbrev S4000x256 : Shape := ⟨2, ![4000, 256]⟩
abbrev S4000x1 : Shape := ⟨2, ![4000, 1]⟩
abbrev S4000x1000 : Shape := ⟨2, ![4000, 1000]⟩
abbrev S1x4000 : Shape := ⟨2, ![1, 4000]⟩

abbrev nBuf : Space → Nat
  | .hbm => 79
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S200000x256, .f32⟩
  | .hbm, ⟨2, _⟩ => ⟨S1000x256, .f32⟩
  | .hbm, ⟨3, _⟩ => ⟨S256, .i32⟩
  | .hbm, ⟨4, _⟩ => ⟨S200000, .i32⟩
  | .hbm, ⟨5, _⟩ => ⟨S256, .i32⟩
  | .hbm, ⟨6, _⟩ => ⟨S256x1000, .f32⟩
  | .hbm, ⟨7, _⟩ => ⟨S256x1000, .f32⟩
  | .hbm, ⟨8, _⟩ => ⟨S_, .i32⟩
  | .hbm, ⟨9, _⟩ => ⟨S256, .i32⟩
  | .hbm, ⟨10, _⟩ => ⟨S256, .i1⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S256x1, .i32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256, .f32⟩
  | .hbm, ⟨27, _⟩ => ⟨S256x1, .f32⟩
  | .hbm, ⟨28, _⟩ => ⟨S_, .f32⟩
  | .hbm, ⟨29, _⟩ => ⟨S256x1, .f32⟩
  | .hbm, ⟨30, _⟩ => ⟨S256x1, .f32⟩
  | .hbm, ⟨31, _⟩ => ⟨S256x1, .f32⟩
  | .hbm, ⟨32, _⟩ => ⟨S256x256, .f32⟩
  | .hbm, ⟨33, _⟩ => ⟨S256x256, .f32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .i32⟩
  | .hbm, ⟨41, _⟩ => ⟨S256x1, .i32⟩
  | .hbm, ⟨42, _⟩ => ⟨S200000x256, .f32⟩
  | .hbm, ⟨43, _⟩ => ⟨S2x100000x256, .f32⟩
  | .hbm, ⟨44, _⟩ => ⟨S2x100000x1, .i32⟩
  | .hbm, ⟨45, _⟩ => ⟨S2x1000x256, .f32⟩
  | .hbm, ⟨46, _⟩ => ⟨S2x1x1000, .f32⟩
  | .hbm, ⟨47, _⟩ => ⟨S1x1000x256, .f32⟩
  | .hbm, ⟨48, _⟩ => ⟨S1000x256, .f32⟩
  | .hbm, ⟨49, _⟩ => ⟨S1x1000x256, .f32⟩
  | .hbm, ⟨50, _⟩ => ⟨S1000x256, .f32⟩
  | .hbm, ⟨51, _⟩ => ⟨S1000x256, .f32⟩
  | .hbm, ⟨52, _⟩ => ⟨S1x1x1000, .f32⟩
  | .hbm, ⟨53, _⟩ => ⟨S1x1000, .f32⟩
  | .hbm, ⟨54, _⟩ => ⟨S1x1x1000, .f32⟩
  | .hbm, ⟨55, _⟩ => ⟨S1x1000, .f32⟩
  | .hbm, ⟨56, _⟩ => ⟨S1x1000, .f32⟩
  | .hbm, ⟨57, _⟩ => ⟨S1000x1, .f32⟩
  | .hbm, ⟨58, _⟩ => ⟨S_, .f32⟩
  | .hbm, ⟨59, _⟩ => ⟨S1000x1, .f32⟩
  | .hbm, ⟨60, _⟩ => ⟨S1000x1, .f32⟩
  | .hbm, ⟨61, _⟩ => ⟨S1000x256, .f32⟩
  | .hbm, ⟨62, _⟩ => ⟨S1000x256, .f32⟩
  | .hbm, ⟨63, _⟩ => ⟨S_, .i1⟩
  | .hbm, ⟨64, _⟩ => ⟨S1000, .i1⟩
  | .hbm, ⟨65, _⟩ => ⟨S_, .i32⟩
  | .hbm, ⟨66, _⟩ => ⟨S256, .i32⟩
  | .hbm, ⟨67, _⟩ => ⟨S256, .i1⟩
  | .hbm, ⟨68, _⟩ => ⟨S_, .i32⟩
  | .hbm, ⟨69, _⟩ => ⟨S256, .i32⟩
  | .hbm, ⟨70, _⟩ => ⟨S256, .i32⟩
  | .hbm, ⟨71, _⟩ => ⟨S256, .i32⟩
  | .hbm, ⟨72, _⟩ => ⟨S256x1, .i32⟩
  | .hbm, ⟨73, _⟩ => ⟨S_, .i1⟩
  | .hbm, ⟨74, _⟩ => ⟨S256, .i1⟩
  | .hbm, ⟨75, _⟩ => ⟨S1000, .i1⟩
  | .hbm, ⟨76, _⟩ => ⟨S1000x1, .i1⟩
  | .hbm, ⟨77, _⟩ => ⟨S1000x256, .i1⟩
  | .hbm, ⟨78, _⟩ => ⟨S1000x256, .f32⟩
  | .local _ .vmem, ⟨0, _⟩ => ⟨S1x4000x256, .f32⟩
  | .local _ .vmem, ⟨1, _⟩ => ⟨S1x4000x256, .f32⟩
  | .local _ .vmem, ⟨2, _⟩ => ⟨S1x4000x1, .i32⟩
  | .local _ .vmem, ⟨3, _⟩ => ⟨S1x4000x1, .i32⟩
  | .local _ .vmem, ⟨4, _⟩ => ⟨S1x1000x256, .f32⟩
  | .local _ .vmem, ⟨5, _⟩ => ⟨S1x1000x256, .f32⟩
  | .local _ .vmem, ⟨6, _⟩ => ⟨S1x1x1000, .f32⟩
  | .local _ .vmem, ⟨7, _⟩ => ⟨S1x1x1000, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_v0_0 : Ref sig .tc := ⟨.hbm, 7, rfl⟩
abbrev main_call0_c : Ref sig .tc := ⟨.hbm, 8, rfl⟩
abbrev main_call0_v2 : Ref sig .tc := ⟨.hbm, 9, rfl⟩
abbrev main_call0_v3 : Ref sig .tc := ⟨.hbm, 10, rfl⟩
abbrev main_call0_c_0 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_cst : Ref sig .tc := ⟨.hbm, 17, rfl⟩
abbrev main_call0_v9 : Ref sig .tc := ⟨.hbm, 18, rfl⟩
abbrev main_call0_v10 : Ref sig .tc := ⟨.hbm, 19, rfl⟩
abbrev main_call0_cst_1 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst_2 : Ref sig .tc := ⟨.hbm, 25, rfl⟩
abbrev main_call0_v15 : Ref sig .tc := ⟨.hbm, 26, rfl⟩
abbrev main_call0_v16 : Ref sig .tc := ⟨.hbm, 27, rfl⟩
abbrev main_call0_cst_3 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_c_4 : Ref sig .tc := ⟨.hbm, 34, rfl⟩
abbrev main_call0_v22 : Ref sig .tc := ⟨.hbm, 35, rfl⟩
abbrev main_call0_v23 : Ref sig .tc := ⟨.hbm, 36, rfl⟩
abbrev main_call0_c_5 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_v0_1 : Ref sig .tc := ⟨.hbm, 42, rfl⟩
abbrev main_call0_v29 : Ref sig .tc := ⟨.hbm, 43, rfl⟩
abbrev main_call0_v30 : Ref sig .tc := ⟨.hbm, 44, rfl⟩
abbrev main_call0_v31_0 : Ref sig .tc := ⟨.hbm, 45, rfl⟩
abbrev main_call0_v31_1 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_v35 : Ref sig .tc := ⟨.hbm, 50, rfl⟩
abbrev main_call0_v36 : Ref sig .tc := ⟨.hbm, 51, rfl⟩
abbrev main_call0_v37 : Ref sig .tc := ⟨.hbm, 52, rfl⟩
abbrev main_call0_v38 : Ref sig .tc := ⟨.hbm, 53, rfl⟩
abbrev main_call0_v39 : Ref sig .tc := ⟨.hbm, 54, rfl⟩
abbrev main_call0_v40 : Ref sig .tc := ⟨.hbm, 55, rfl⟩
abbrev main_call0_v41 : Ref sig .tc := ⟨.hbm, 56, rfl⟩
abbrev main_call0_v42 : Ref sig .tc := ⟨.hbm, 57, rfl⟩
abbrev main_call0_cst_6 : Ref sig .tc := ⟨.hbm, 58, rfl⟩
abbrev main_call0_v43 : Ref sig .tc := ⟨.hbm, 59, rfl⟩
abbrev main_call0_v44 : Ref sig .tc := ⟨.hbm, 60, rfl⟩
abbrev main_call0_v45 : Ref sig .tc := ⟨.hbm, 61, rfl⟩
abbrev main_call0_v46 : Ref sig .tc := ⟨.hbm, 62, rfl⟩
abbrev main_call0_c_7 : Ref sig .tc := ⟨.hbm, 63, rfl⟩
abbrev main_call0_v47 : Ref sig .tc := ⟨.hbm, 64, rfl⟩
abbrev main_call0_c_8 : Ref sig .tc := ⟨.hbm, 65, rfl⟩
abbrev main_call0_v48 : Ref sig .tc := ⟨.hbm, 66, rfl⟩
abbrev main_call0_v49 : Ref sig .tc := ⟨.hbm, 67, rfl⟩
abbrev main_call0_c_9 : Ref sig .tc := ⟨.hbm, 68, rfl⟩
abbrev main_call0_v50 : Ref sig .tc := ⟨.hbm, 69, rfl⟩
abbrev main_call0_v51 : Ref sig .tc := ⟨.hbm, 70, rfl⟩
abbrev main_call0_v52 : Ref sig .tc := ⟨.hbm, 71, rfl⟩
abbrev main_call0_v53 : Ref sig .tc := ⟨.hbm, 72, rfl⟩
abbrev main_call0_c_10 : Ref sig .tc := ⟨.hbm, 73, rfl⟩
abbrev main_call0_v54 : Ref sig .tc := ⟨.hbm, 74, rfl⟩
abbrev main_call0_v55 : Ref sig .tc := ⟨.hbm, 75, rfl⟩
abbrev main_call0_v56 : Ref sig .tc := ⟨.hbm, 76, rfl⟩
abbrev main_call0_call0_v0 : Ref sig .tc := ⟨.hbm, 77, rfl⟩
abbrev main_v0_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S1000x256_S256x1000_1_0 : S1000x256.Transposes [1, 0] S256x1000
  bcast_S_S256 : S_.BroadcastsInDim S256 (![] : Fin 0 → Fin S256.rank)
  bcast_S256_S256x1_0 : S256.BroadcastsInDim S256x1 (![0] : Fin 1 → Fin S256x1.rank)
  bcast_S_S256x256 : S_.BroadcastsInDim S256x256 (![] : Fin 0 → Fin S256x256.rank)
  reducesTo_S256x256_S256_d1 : S256x256.ReducesTo [1] S256
  h_S_ : 0 < S_.numel
  bcast_S_S256x1 : S_.BroadcastsInDim S256x1 (![] : Fin 0 → Fin S256x1.rank)
  bcast_S256x1_S256x256_0_1 : S256x1.BroadcastsInDim S256x256 (![0, 1] : Fin 2 → Fin S256x256.rank)
  shapeCasts_S200000x256_S2x100000x256 : S200000x256.ShapeCasts S2x100000x256
  shapeCasts_S200000_S2x100000x1 : S200000.ShapeCasts S2x100000x1
  slices_S2x1000x256_S1x1000x256_0_0_0 : S2x1000x256.Slices ![0, 0, 0] S1x1000x256
  shapeCasts_S1x1000x256_S1000x256 : S1x1000x256.ShapeCasts S1000x256
  slices_S2x1000x256_S1x1000x256_1_0_0 : S2x1000x256.Slices ![1, 0, 0] S1x1000x256
  slices_S2x1x1000_S1x1x1000_0_0_0 : S2x1x1000.Slices ![0, 0, 0] S1x1x1000
  shapeCasts_S1x1x1000_S1x1000 : S1x1x1000.ShapeCasts S1x1000
  slices_S2x1x1000_S1x1x1000_1_0_0 : S2x1x1000.Slices ![1, 0, 0] S1x1x1000
  shapeCasts_S1x1000_S1000x1 : S1x1000.ShapeCasts S1000x1
  bcast_S_S1000x1 : S_.BroadcastsInDim S1000x1 (![] : Fin 0 → Fin S1000x1.rank)
  bcast_S1000x1_S1000x256_0_1 : S1000x1.BroadcastsInDim S1000x256 (![0, 1] : Fin 2 → Fin S1000x256.rank)
  bcast_S_S1000 : S_.BroadcastsInDim S1000 (![] : Fin 0 → Fin S1000.rank)
  bcast_S1000_S1000x1_0 : S1000.BroadcastsInDim S1000x1 (![0] : Fin 1 → Fin S1000x1.rank)
  inb_S1x1000x256_S1x1000x256_0_0_0 : ∀ a, (![0, 0, 0] : Fin 3 → Nat) a + S1x1000x256.size a ≤ S1x1000x256.size a
  h_S1x1000x256 : 0 < S1x1000x256.numel
  shapeCasts_S1000x256_S1x1000x256 : S1000x256.ShapeCasts S1x1000x256
  inb_S1x1x1000_S1x1x1000_0_0_0 : ∀ a, (![0, 0, 0] : Fin 3 → Nat) a + S1x1x1000.size a ≤ S1x1x1000.size a
  h_S1x1x1000 : 0 < S1x1x1000.numel
  shapeCasts_S1x1000_S1x1x1000 : S1x1000.ShapeCasts S1x1x1000
  inb_S1x4000x256_S1x4000x256_0_0_0 : ∀ a, (![0, 0, 0] : Fin 3 → Nat) a + S1x4000x256.size a ≤ S1x4000x256.size a
  h_S1x4000x256 : 0 < S1x4000x256.numel
  shapeCasts_S1x4000x256_S4000x256 : S1x4000x256.ShapeCasts S4000x256
  bitsLt_bf16_f32 : FTy.bits .bf16 < FTy.bits .f32
  inb_S1x4000x1_S1x4000x1_0_0_0 : ∀ a, (![0, 0, 0] : Fin 3 → Nat) a + S1x4000x1.size a ≤ S1x4000x1.size a
  h_S1x4000x1 : 0 < S1x4000x1.numel
  shapeCasts_S1x4000x1_S4000x1 : S1x4000x1.ShapeCasts S4000x1
  iota_S1x1000_d1_w32 : S1x1000.Iotas .tc 32 [1]
  broadcasts_S4000x1_S4000x1000 : S4000x1.Broadcasts S4000x1000
  broadcasts_S1x1000_S4000x1000 : S1x1000.Broadcasts S4000x1000
  natLt_1_32 : 1 < 32
  dot_S256x256_S256x1000_S256x1000_1_0_0_1_n_n_wf : DotDims.WF S256x256 S256x1000 S256x1000 [1] [0] [0] [1] [] []
  gather_S200000x256_S256x1_S256x256_1_0_n_n_0_1_1256_wf : GatherDims.WF S200000x256 S256x1 S256x256 [1] [0] [] [0] [] 1 ![1, 256]
  scatter_S200000x256_S256x1_S256x256_1_0_0_1_wf : ScatterDims.WF S200000x256 S256x1 S256x256 [1] [0] [0] 1
  scatter_S1000_S256x1_S256_n_0_0_1_wf : ScatterDims.WF S1000 S256x1 S256 [] [0] [0] 1
  dot_S4000x1000_S4000x256_S1000x256_0_0_1_1_n_n_wf : DotDims.WF S4000x1000 S4000x256 S1000x256 [0] [0] [1] [1] [] []
  dot_S1x4000_S4000x1000_S1x1000_1_0_0_1_n_n_wf : DotDims.WF S1x4000 S4000x1000 S1x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4000x256.size a ≤ S2x100000x256.size a
  hwx0_0 : ∀ i : grid0.Coords, EltTy.bits .f32 = 32 ∨ (Rect.block (s := S2x100000x256) S1x4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4000x1.size a ≤ S2x100000x1.size a
  hwx0_1 : ∀ i : grid0.Coords, EltTy.bits .i32 = 32 ∨ (Rect.block (s := S2x100000x1) S1x4000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x256.size a ≤ S2x1000x256.size a
  hwx0_2 : ∀ i : grid0.Coords, EltTy.bits .f32 = 32 ∨ (Rect.block (s := S2x1000x256) S1x1000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1000.size a ≤ S2x1x1000.size a
  hwx0_3 : ∀ i : grid0.Coords, EltTy.bits .f32 = 32 ∨ (Rect.block (s := S2x1x1000) S1x1x1000.size (cc0_transform_3 i) (hinb0_3 i)).WholeWords (EltTy.packing .f32)

variable [Facts₀]

def dot_S256x256_S256x1000_S256x1000_1_0_0_1_n_n : DotDims S256x256 S256x1000 S256x1000 where
  lhsContracting := [1]
  rhsContracting := [0]
  lhsNonContracting := [0]
  rhsNonContracting := [1]
  lhsBatch := []
  rhsBatch := []
  wf := dot_S256x256_S256x1000_S256x1000_1_0_0_1_n_n_wf
def gather_S200000x256_S256x1_S256x256_1_0_n_n_0_1_1256 : GatherDims S200000x256 S256x1 S256x256 where
  offsetDims := [1]
  collapsedSliceDims := [0]
  operandBatchingDims := []
  startIndicesBatchingDims := []
  startIndexMap := [0]
  indexVectorDim := 1
  sliceSizes := ![1, 256]
  wf := gather_S200000x256_S256x1_S256x256_1_0_n_n_0_1_1256_wf
def scatter_S200000x256_S256x1_S256x256_1_0_0_1 : ScatterDims S200000x256 S256x1 S256x256 where
  updateWindowDims := [1]
  insertedWindowDims := [0]
  scatterDimsToOperandDims := [0]
  indexVectorDim := 1
  wf := scatter_S200000x256_S256x1_S256x256_1_0_0_1_wf
def scatter_S1000_S256x1_S256_n_0_0_1 : ScatterDims S1000 S256x1 S256 where
  updateWindowDims := []
  insertedWindowDims := [0]
  scatterDimsToOperandDims := [0]
  indexVectorDim := 1
  wf := scatter_S1000_S256x1_S256_n_0_0_1_wf
def dot_S4000x1000_S4000x256_S1000x256_0_0_1_1_n_n : DotDims S4000x1000 S4000x256 S1000x256 where
  lhsContracting := [0]
  rhsContracting := [0]
  lhsNonContracting := [1]
  rhsNonContracting := [1]
  lhsBatch := []
  rhsBatch := []
  wf := dot_S4000x1000_S4000x256_S1000x256_0_0_1_1_n_n_wf
def dot_S1x4000_S4000x1000_S1x1000_1_0_0_1_n_n : DotDims S1x4000 S4000x1000 S1x1000 where
  lhsContracting := [1]
  rhsContracting := [0]
  lhsNonContracting := [0]
  rhsNonContracting := [1]
  lhsBatch := []
  rhsBatch := []
  wf := dot_S1x4000_S4000x1000_S1x1000_1_0_0_1_n_n_wf

abbrev win0_0 : Pipeline.Window sig grid0 :=
  Pipeline.Window.ofSpec (Memref.whole main_call0_v29) S1x4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v30) S1x4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v31_0) S1x1000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v31_1) S1x1x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x256 : Shape := ⟨2, ![256, 256]⟩
abbrev S200000x256 : Shape := ⟨2, ![200000, 256]⟩
abbrev S1000x256 : Shape := ⟨2, ![1000, 256]⟩
abbrev S256 : Shape := ⟨1, ![256]⟩
abbrev S200000 : Shape := ⟨1, ![200000]⟩
abbrev S256x1000 : Shape := ⟨2, ![256, 1000]⟩
abbrev S_ : Shape := ⟨0, ![]⟩
abbrev S256x1 : Shape := ⟨2, ![256, 1]⟩
abbrev S200000x1 : Shape := ⟨2, ![200000, 1]⟩
abbrev S1000 : Shape := ⟨1, ![1000]⟩
abbrev S1000x1 : Shape := ⟨2, ![1000, 1]⟩

abbrev nBuf : Space → Nat
  | .hbm => 75
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S200000x256, .f32⟩
  | .hbm, ⟨2, _⟩ => ⟨S1000x256, .f32⟩
  | .hbm, ⟨3, _⟩ => ⟨S256, .i32⟩
  | .hbm, ⟨4, _⟩ => ⟨S200000, .i32⟩
  | .hbm, ⟨5, _⟩ => ⟨S256, .i32⟩
  | .hbm, ⟨6, _⟩ => ⟨S256x1000, .f32⟩
  | .hbm, ⟨7, _⟩ => ⟨S256x1000, .f32⟩
  | .hbm, ⟨8, _⟩ => ⟨S_, .i32⟩
  | .hbm, ⟨9, _⟩ => ⟨S256, .i32⟩
  | .hbm, ⟨10, _⟩ => ⟨S256, .i1⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S256x1, .i32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256, .f32⟩
  | .hbm, ⟨27, _⟩ => ⟨S256x1, .f32⟩
  | .hbm, ⟨28, _⟩ => ⟨S_, .f32⟩
  | .hbm, ⟨29, _⟩ => ⟨S256x1, .f32⟩
  | .hbm, ⟨30, _⟩ => ⟨S256x1, .f32⟩
  | .hbm, ⟨31, _⟩ => ⟨S256x1, .f32⟩
  | .hbm, ⟨32, _⟩ => ⟨S256x256, .f32⟩
  | .hbm, ⟨33, _⟩ => ⟨S256x256, .f32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .i32⟩
  | .hbm, ⟨41, _⟩ => ⟨S256x1, .i32⟩
  | .hbm, ⟨42, _⟩ => ⟨S200000x256, .f32⟩
  | .hbm, ⟨43, _⟩ => ⟨S_, .f32⟩
  | .hbm, ⟨44, _⟩ => ⟨S1000x256, .f32⟩
  | .hbm, ⟨45, _⟩ => ⟨S200000x1, .i32⟩
  | .hbm, ⟨46, _⟩ => ⟨S1000x256, .f32⟩
  | .hbm, ⟨47, _⟩ => ⟨S_, .f32⟩
  | .hbm, ⟨48, _⟩ => ⟨S200000, .f32⟩
  | .hbm, ⟨49, _⟩ => ⟨S_, .f32⟩
  | .hbm, ⟨50, _⟩ => ⟨S1000, .f32⟩
  | .hbm, ⟨51, _⟩ => ⟨S200000x1, .i32⟩
  | .hbm, ⟨52, _⟩ => ⟨S1000, .f32⟩
  | .hbm, ⟨53, _⟩ => ⟨S_, .f32⟩
  | .hbm, ⟨54, _⟩ => ⟨S1000, .f32⟩
  | .hbm, ⟨55, _⟩ => ⟨S1000, .f32⟩
  | .hbm, ⟨56, _⟩ => ⟨S1000x1, .f32⟩
  | .hbm, ⟨57, _⟩ => ⟨S1000x256, .f32⟩
  | .hbm, ⟨58, _⟩ => ⟨S1000x256, .f32⟩
  | .hbm, ⟨59, _⟩ => ⟨S_, .i1⟩
  | .hbm, ⟨60, _⟩ => ⟨S1000, .i1⟩
  | .hbm, ⟨61, _⟩ => ⟨S_, .i32⟩
  | .hbm, ⟨62, _⟩ => ⟨S256, .i32⟩
  | .hbm, ⟨63, _⟩ => ⟨S256, .i1⟩
  | .hbm, ⟨64, _⟩ => ⟨S_, .i32⟩
  | .hbm, ⟨65, _⟩ => ⟨S256, .i32⟩
  | .hbm, ⟨66, _⟩ => ⟨S256, .i32⟩
  | .hbm, ⟨67, _⟩ => ⟨S256, .i32⟩
  | .hbm, ⟨68, _⟩ => ⟨S256x1, .i32⟩
  | .hbm, ⟨69, _⟩ => ⟨S_, .i1⟩
  | .hbm, ⟨70, _⟩ => ⟨S256, .i1⟩
  | .hbm, ⟨71, _⟩ => ⟨S1000, .i1⟩
  | .hbm, ⟨72, _⟩ => ⟨S1000x1, .i1⟩
  | .hbm, ⟨73, _⟩ => ⟨S1000x256, .i1⟩
  | .hbm, ⟨74, _⟩ => ⟨S1000x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_10 : Ref sig .tc := ⟨.hbm, 59, rfl⟩
abbrev main_v41 : Ref sig .tc := ⟨.hbm, 60, rfl⟩
abbrev main_c_11 : Ref sig .tc := ⟨.hbm, 61, rfl⟩
abbrev main_v42 : Ref sig .tc := ⟨.hbm, 62, rfl⟩
abbrev main_v43 : Ref sig .tc := ⟨.hbm, 63, rfl⟩
abbrev main_c_12 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_13 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call0_v0 : Ref sig .tc := ⟨.hbm, 73, rfl⟩
abbrev main_v51 : Ref sig .tc := ⟨.hbm, 74, rfl⟩

abbrev nD : Nat := 1
abbrev τ : Topo := Topo.v7x

variable {F : FTy → Type} [FloatOps F]

class Facts₀ : Prop where
  transposes_S1000x256_S256x1000_1_0 : S1000x256.Transposes [1, 0] S256x1000
  bcast_S_S256 : S_.BroadcastsInDim S256 (![] : Fin 0 → Fin S256.rank)
  bcast_S256_S256x1_0 : S256.BroadcastsInDim S256x1 (![0] : Fin 1 → Fin S256x1.rank)
  bcast_S_S256x256 : S_.BroadcastsInDim S256x256 (![] : Fin 0 → Fin S256x256.rank)
  reducesTo_S256x256_S256_d1 : S256x256.ReducesTo [1] S256
  h_S_ : 0 < S_.numel
  bcast_S_S256x1 : S_.BroadcastsInDim S256x1 (![] : Fin 0 → Fin S256x1.rank)
  bcast_S256x1_S256x256_0_1 : S256x1.BroadcastsInDim S256x256 (![0, 1] : Fin 2 → Fin S256x256.rank)
  bcast_S_S1000x256 : S_.BroadcastsInDim S1000x256 (![] : Fin 0 → Fin S1000x256.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  dot_S256x256_S256x1000_S256x1000_1_0_0_1_n_n_wf : DotDims.WF S256x256 S256x1000 S256x1000 [1] [0] [0] [1] [] []
  gather_S200000x256_S256x1_S256x256_1_0_n_n_0_1_1256_wf : GatherDims.WF S200000x256 S256x1 S256x256 [1] [0] [] [0] [] 1 ![1, 256]
  scatter_S200000x256_S256x1_S256x256_1_0_0_1_wf : ScatterDims.WF S200000x256 S256x1 S256x256 [1] [0] [0] 1
  scatter_S1000x256_S200000x1_S200000x256_1_0_0_1_wf : ScatterDims.WF S1000x256 S200000x1 S200000x256 [1] [0] [0] 1
  scatter_S1000_S200000x1_S200000_n_0_0_1_wf : ScatterDims.WF S1000 S200000x1 S200000 [] [0] [0] 1
  scatter_S1000_S256x1_S256_n_0_0_1_wf : ScatterDims.WF S1000 S256x1 S256 [] [0] [0] 1

variable [Facts₀]

def dot_S256x256_S256x1000_S256x1000_1_0_0_1_n_n : DotDims S256x256 S256x1000 S256x1000 where
  lhsContracting := [1]
  rhsContracting := [0]
  lhsNonContracting := [0]
  rhsNonContracting := [1]
  lhsBatch := []
  rhsBatch := []
  wf := dot_S256x256_S256x1000_S256x1000_1_0_0_1_n_n_wf
def gather_S200000x256_S256x1_S256x256_1_0_n_n_0_1_1256 : GatherDims S200000x256 S256x1 S256x256 where
  offsetDims := [1]
  collapsedSliceDims := [0]
  operandBatchingDims := []
  startIndicesBatchingDims := []
  startIndexMap := [0]
  indexVectorDim := 1
  sliceSizes := ![1, 256]
  wf := gather_S200000x256_S256x1_S256x256_1_0_n_n_0_1_1256_wf
def scatter_S200000x256_S256x1_S256x256_1_0_0_1 : ScatterDims S200000x256 S256x1 S256x256 where
  updateWindowDims := [1]
  insertedWindowDims := [0]
  scatterDimsToOperandDims := [0]
  indexVectorDim := 1
  wf := scatter_S200000x256_S256x1_S256x256_1_0_0_1_wf
def scatter_S1000x256_S200000x1_S200000x256_1_0_0_1 : ScatterDims S1000x256 S200000x1 S200000x256 where
  updateWindowDims := [1]
  insertedWindowDims := [0]
  scatterDimsToOperandDims := [0]
  indexVectorDim := 1
  wf := scatter_S1000x256_S200000x1_S200000x256_1_0_0_1_wf
def scatter_S1000_S200000x1_S200000_n_0_0_1 : ScatterDims S1000 S200000x1 S200000 where
  updateWindowDims := []
  insertedWindowDims := [0]
  scatterDimsToOperandDims := [0]
  indexVectorDim := 1
  wf := scatter_S1000_S200000x1_S200000_n_0_0_1_wf
def scatter_S1000_S256x1_S256_n_0_0_1 : ScatterDims S1000 S256x1 S256 where
  updateWindowDims := []
  insertedWindowDims := [0]
  scatterDimsToOperandDims := [0]
  indexVectorDim := 1
  wf := scatter_S1000_S256x1_S256_n_0_0_1_wf

class Facts : Prop extends Facts₀ where

variable [Facts]
-- ==== Proof.SegSpec.lean ====
/-
  The segment sums and counts that both programs compute, as functions of the label vector and the row table.

  A table of 200000 rows of 256 entries is grouped by a vector of 200000 label words into 1000 segments: entry
  (k, e) of the segment sums is the sum, over the rows n whose label word read as a signed integer is k, of entry
  (n, e) of the table; entry k of the segment counts is the number of such rows. Both are written with the weight
  `hot w k` (one when the word w is k, zero otherwise), so that a row that belongs to no segment weighs nothing.
  The rows are also numbered by (core, tile, position): row (a, j, r) is row a·100000 + j·4000 + r, two cores of 25
  tiles of 4000 rows, and the sum over all rows is the sum over the cores of the sums over the tiles of the sums over
  the positions; the extended reals under addition form a commutative monoid, so no finiteness is asked.
-/
import Idealize.ShloMosaic.PureOps.Ideal
import Idealize.ShloMosaic.Lib.ValueIdx

noncomputable section

open scoped BigOperators

namespace Cert.SegSpec

open Idealize.ShloMosaic

/-- Row (a, j, r) of the table: position r of tile j of core a. -/
def row (a : Fin 2) (j : Fin 25) (r : Fin 4000) : Fin 200000 :=
  ⟨a.val * 100000 + j.val * 4000 + r.val, by have := a.isLt; have := j.isLt; have := r.isLt; omega⟩

/-- The rows are the triples (core, tile, position). -/
def rowEquiv : Fin 2 × Fin 25 × Fin 4000 ≃ Fin 200000 where
  toFun p := row p.1 p.2.1 p.2.2
  invFun n := (⟨n.val / 100000, by have := n.isLt; omega⟩, ⟨n.val % 100000 / 4000, by omega⟩, ⟨n.val % 4000, by omega⟩)
  left_inv p := by
    obtain ⟨a, j, r⟩ := p
    have := a.isLt; have := j.isLt; have := r.isLt
    refine Prod.ext (Fin.ext ?_) (Prod.ext (Fin.ext ?_) (Fin.ext ?_)) <;> simp only [row] <;> omega
  right_inv n := by
    apply Fin.ext
    have := n.isLt
    simp only [row]
    omega

/-- A sum over the rows is the sum over the cores, the tiles and the positions. -/
theorem sum_rows {M : Type*} [AddCommMonoid M] (g : Fin 200000 → M) :
    ∑ n, g n = ∑ a : Fin 2, ∑ j : Fin 25, ∑ r : Fin 4000, g (row a j r) := by
  rw [← Equiv.sum_comp rowEquiv g, Fintype.sum_prod_type]
  refine Finset.sum_congr rfl fun a _ => ?_
  rw [Fintype.sum_prod_type]
  rfl

/-- The weight of a row with label word `w` in segment `k`: one when the word, read signed, is `k`; else zero. -/
def hot (w : BitVec 32) (k : Fin 1000) : EReal := if w.toInt = (k.val : ℤ) then 1 else 0

/-- Entry (k, e) of the segment sums of the table `f` under the labels `lab`. -/
def segSum (lab : Fin 200000 → BitVec 32) (f : Fin 200000 → Fin 256 → EReal) (k : Fin 1000) (e : Fin 256) : EReal :=
  ∑ n, hot (lab n) k * f n e

/-- Entry k of the segment counts under the labels `lab`. -/
def segCnt (lab : Fin 200000 → BitVec 32) (k : Fin 1000) : EReal := ∑ n, hot (lab n) k

/-- The part of segment sum (k, e) that tile j of core a contributes. -/
def tileSum (lab : Fin 200000 → BitVec 32) (f : Fin 200000 → Fin 256 → EReal) (a : Fin 2) (j : Fin 25)
    (k : Fin 1000) (e : Fin 256) : EReal :=
  ∑ r : Fin 4000, hot (lab (row a j r)) k * f (row a j r) e

/-- The part of segment count k that tile j of core a contributes. -/
def tileCnt (lab : Fin 200000 → BitVec 32) (a : Fin 2) (j : Fin 25) (k : Fin 1000) : EReal :=
  ∑ r : Fin 4000, hot (lab (row a j r)) k

/-- A segment sum is the two cores' sums of their tiles' parts. -/
theorem segSum_eq_tiles (lab : Fin 200000 → BitVec 32) (f : Fin 200000 → Fin 256 → EReal) (k : Fin 1000) (e : Fin 256) :
    segSum lab f k e = (∑ j : Fin 25, tileSum lab f 0 j k e) + ∑ j : Fin 25, tileSum lab f 1 j k e := by
  unfold segSum tileSum
  rw [sum_rows, Fin.sum_univ_two]

/-- A segment count is the two cores' sums of their tiles' parts. -/
theorem segCnt_eq_tiles (lab : Fin 200000 → BitVec 32) (k : Fin 1000) :
    segCnt lab k = (∑ j : Fin 25, tileCnt lab 0 j k) + ∑ j : Fin 25, tileCnt lab 1 j k := by
  unfold segCnt tileCnt
  rw [sum_rows, Fin.sum_univ_two]

end Cert.SegSpec

end
-- ==== Proof.LibRank3Layout.lean ====
/-
  Rank-3 stacks read at an index: the layout operations, the reductions over the last axis and the plain matrix
  product that a kernel working on a stack [a, b, c] of rows meets, each read at explicit coordinates.

  A matrix [a, b] viewed as [a, b, 1] or as [a, 1, b] keeps its entries; a stack [a, b, c] flattened to [a·b, c] puts row
  (i, j) at flat row i·b + j, and back; a column stack [a, b, 1] or a row stack [a, 1, c] broadcast to [a, b, c] repeats its
  entries along the unit axis. A sum or a maximum over the last axis of a stack, read at (i, j), is the sum or the fold of
  `max` over the entries (i, j, l). The plain product of an m×k by a k×n matrix into a zero accumulator, read at (r, h), is
  the sum over the contracted coordinate of the products of the entries. The reductions and the product are at the ideal values.
-/
import Idealize.ShloMosaic.PureOps.Ideal.Laws
import Idealize.ShloMosaic.Lib.ValueIdx
import Idealize.ShloMosaic.Lib.Pipeline.Value

noncomputable section

namespace Idealize.ShloMosaic.Rank3Layout

open Idealize.ShloMosaic Idealize.ShloMosaic.ValueIdx

variable {α : Type}

/-! ## Unit axes added to a matrix -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## A stack flattened to a matrix, and back -/

/-- An `[a, b, c]` array cast to `[n, c]` reads, at `(r, l)` with `r = i·b + j`, the operand at `(i, j, l)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (l : Fin c) (r : Fin n)
    (hr : r.val = i.val * b + j.val) : shapeCast ⟨2, ![n, c]⟩ x h (ix2 r l) = x (ix3 i j l) :=
  shapeCast_apply x h _ _ (by
    rw [Shape.rowMajor_val_three, Shape.rowMajor_val_two]
    show (i.val * b + j.val) * c + l.val = r.val * c + l.val
    rw [hr])

/-- An `[n, c]` array cast to `[a, b, c]` reads, at `(i, j, l)`, the operand at `(r, l)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (l : Fin c) (r : Fin n)
    (hr : r.val = i.val * b + j.val) : shapeCast ⟨3, ![a, b, c]⟩ x h (ix3 i j l) = x (ix2 r l) :=
  shapeCast_apply x h _ _ (by
    rw [Shape.rowMajor_val_three, Shape.rowMajor_val_two]
    show r.val * c + l.val = (i.val * b + j.val) * c + l.val
    rw [hr])

/-! ## A unit axis broadcast -/

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-! ## Reductions over the last axis, at the ideal values -/

/-- The index over `(i, j)` with `l` put on the dropped last axis is `(i, j, l)`. -/
theorem lift_last {a b c : ℕ} (h : (⟨3, ![a, b, c]⟩ : Shape).Reduces [2] ⟨2, ![a, b]⟩) (i : Fin a) (j : Fin b) (l : Fin c) :
    h.lift (ix2 i j) l = ix3 i j l := by
  funext ax; apply Fin.ext
  match ax with
  | ⟨0, _⟩ => rfl
  | ⟨1, _⟩ => rfl
  | ⟨2, _⟩ => rfl

/-- A sum over the last axis of a stack, read at `(i, j)`, is the sum of the entries `(i, j, l)`. -/
theorem multiReduction_add_last {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ l : Fin c, src (ix3 i j l) := by
  refine (Ideal.multiReduction_add_single src acc h hφ hacc (ix2 i j)).trans ?_
  show ∑ l : Fin c, src (h.lift (ix2 i j) l) = _
  exact Finset.sum_congr rfl fun l _ => congrArg src (lift_last h i j l)

/-- A maximum over the last axis of a stack, read at `(i, j)`, is the fold of `max`, from the accumulator's value, over the
    entries `(i, j, l)`. -/
theorem multiReduction_maximumf_last {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun l => src (ix3 i j l)) := by
  refine (Ideal.multiReduction_maximumf_single src acc h hφ hacc (ix2 i j)).trans ?_
  show (Finset.univ : Finset (Fin c)).fold max (Ideal.ofBits φ acc) (fun l => src (h.lift (ix2 i j) l)) = _
  exact congrArg (fun f : Fin c → EReal => (Finset.univ : Finset (Fin c)).fold max (Ideal.ofBits φ acc) f)
    (funext fun l => congrArg src (lift_last h i j l))

/-! ## The plain matrix product into a zero accumulator, at the ideal values -/

/-- A kernel's product of an m×k by a k×n matrix into the zero accumulator, read at `(r, h)`. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply,
    ← Equiv.sum_comp (contrEquiv1 (⟨[1], [0], [0], [1], [], [], w⟩ : DotDims _ _ _) k rfl rfl).symm]
  refine Finset.sum_congr rfl fun l _ => ?_
  have c2 := contrEquiv1_symm_val
    (⟨[1], [0], [0], [1], [], [], w⟩ : DotDims ⟨2, ![m, k]⟩ ⟨2, ![k, n]⟩ ⟨2, ![m, n]⟩) k rfl rfl l
  have l2 : (⟨[1], [0], [0], [1], [], [], w⟩ : DotDims ⟨2, ![m, k]⟩ ⟨2, ![k, n]⟩ ⟨2, ![m, n]⟩).lhsIdx (ix2 r h)
      ((contrEquiv1 _ k rfl rfl).symm l) = ix2 r l := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r h)
      ((contrEquiv1 _ k rfl rfl).symm l) = ix2 l h := by
    funext ax; apply Fin.ext
    match ax with
    | ⟨0, _⟩ => simp [DotDims.rhsIdx]; exact c2
    | ⟨1, _⟩ => simp [DotDims.rhsIdx]; rfl
  rw [l2, r2]

end Idealize.ShloMosaic.Rank3Layout

end
-- ==== Proof.KBlocks.lean ====
/-
  What the kernel's region finds in its two input arrays, and what each tile's blocks are.

  Before the region the host computes the first two results — the logits and the updated table, by the same
  operations as the reference — and re-lays the updated table [200000, 256] as [2, 100000, 256] and the labels
  [200000] as [2, 100000, 1]: entry (a, n, e) of the first is entry (a·100000 + n, e) of the table, entry (a, n, 0) of
  the second is label a·100000 + n. Tile j of core a (grid point 25a + j) reads the block of 4000 rows starting at
  row 4000j of slab a, so position r of the block is row (a, j, r) of the table.
-/
import proofs.«421042_j68444598829641_3_alg».proof.Proof.Gen.KernelIdeal.Frame
import proofs.«421042_j68444598829641_3_alg».proof.Proof.RefRead
import proofs.«421042_j68444598829641_3_alg».proof.Proof.SegSpec
import proofs.«421042_j68444598829641_3_alg».proof.Proof.LibRank3Layout
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.KBlocks

open Cert.KernelIdeal Cert.KernelIdeal.Gen Cert.SegSpec

variable {F : FTy → Type} [FloatOps F]
variable (m : (ℓ : Loc nD τ sig) → Buf (Elt F) ℓ)

/-- The updated table, as a function of the arguments: the stage of that name in the reference. -/
abbrev tbl (c : Dev nD) : FVec F S200000x256 .f32 :=
  Cert.ReferenceIdeal.ReadP.val_main_v28 (F := F) (m ((c.tc : Thread nD τ).loc main_arg0)) (m ((c.tc : Thread nD τ).loc main_arg1)) (m ((c.tc : Thread nD τ).loc main_arg3))

/-- Contents carried to a buffer's own type and back are the contents. -/
theorem ofBuf_toBuf {sg : RefSig} {Val : EltTy → Type} {T : BufTy} (x : StableHlo.TRef sg T) (v : T.Contents Val) :
    x.ofBuf (x.toBuf v) = v := by
  obtain ⟨r, h, _, _⟩ := x
  subst h
  rfl

/-- Where the rows block of a grid point sits: point 25a + j reads slab a, block j, from column 0. -/
theorem index0 : ∀ t : Fin cfg0.N, win0_0.index t 0 = t.val / 25 ∧ win0_0.index t 1 = t.val % 25 ∧ win0_0.index t 2 = 0 :=
  (by decide +kernel : ∀ t : Fin grid0.N, win0_0.index t 0 = t.val / 25 ∧ win0_0.index t 1 = t.val % 25 ∧ win0_0.index t 2 = 0)

/-- Where the labels block of a grid point sits: the same slab and block. -/
theorem index1 : ∀ t : Fin cfg0.N, win0_1.index t 0 = t.val / 25 ∧ win0_1.index t 1 = t.val % 25 ∧ win0_1.index t 2 = 0 :=
  (by decide +kernel : ∀ t : Fin grid0.N, win0_1.index t 0 = t.val / 25 ∧ win0_1.index t 1 = t.val % 25 ∧ win0_1.index t 2 = 0)

set_option maxHeartbeats 4000000 in
/-- The region finds the second result at the updated table. -/
theorem V_table (c : Dev nD) : (V m c main_v0_1 : FVec F S200000x256 .f32) = tbl m c := by
  -- the three arguments the table depends on, read at their own types
  have e0 : (StableHlo.TRef.of main_arg0 : StableHlo.TRef sig ⟨S256x256, .f32⟩).ofBuf (m (c, Proc.devRef .tc main_arg0))
      = m ((c.tc : Thread nD τ).loc main_arg0) := rfl
  have e1 : (StableHlo.TRef.of main_arg1 : StableHlo.TRef sig ⟨S200000x256, .f32⟩).ofBuf (m (c, Proc.devRef .tc main_arg1))
      = m ((c.tc : Thread nD τ).loc main_arg1) := rfl
  have e3 : (StableHlo.TRef.of main_arg3 : StableHlo.TRef sig ⟨S256, .i32⟩).ofBuf (m (c, Proc.devRef .tc main_arg3))
      = m ((c.tc : Thread nD τ).loc main_arg3) := rfl
  show StableHlo.after hostOps0 (fun b => m (c, b)) (Proc.devRef .tc main_v0_1) = _
  after_results_simp
  simp only [ofBuf_toBuf]
  refine eq_of_heq ((cast_heq _ _).trans (heq_of_eq ?_))
  rw [e0, e1, e3]
  rfl

set_option maxHeartbeats 4000000 in
/-- The region finds the first result at the logits, the reference's first stage of the same arguments. -/
theorem V_logits (c : Dev nD) : (V m c main_v0_0 : FVec F S256x1000 .f32)
    = Cert.ReferenceIdeal.ReadP.val_main_v1 (F := F) (m ((c.tc : Thread nD τ).loc main_arg0)) (m ((c.tc : Thread nD τ).loc main_arg2)) := by
  show StableHlo.after hostOps0 (fun b => m (c, b)) (Proc.devRef .tc main_v0_0) = _
  after_results_simp
  simp only [ofBuf_toBuf]
  rfl

set_option maxHeartbeats 4000000 in
/-- The re-laid table [2, 100000, 256] is the second result [200000, 256] with its rows split in two slabs. -/
theorem V_slabs (c : Dev nD) : (V m c main_call0_v29 : FVec F S2x100000x256 .f32)
    = shapeCast S2x100000x256 (V m c main_v0_1 : FVec F S200000x256 .f32) shapeCasts_S200000x256_S2x100000x256 := by
  show StableHlo.after hostOps0 (fun b => m (c, b)) (Proc.devRef .tc main_call0_v29)
    = shapeCast S2x100000x256 (StableHlo.after hostOps0 (fun b => m (c, b)) (Proc.devRef .tc main_v0_1)) shapeCasts_S200000x256_S2x100000x256
  after_results_simp
  simp only [ofBuf_toBuf]
  rfl

set_option maxHeartbeats 4000000 in
/-- The re-laid labels [2, 100000, 1] are the label argument [200000] split in two slabs of one column. -/
theorem V_labelSlabs (c : Dev nD) : (V m c main_call0_v30 : IVec S2x100000x1 32)
    = shapeCast S2x100000x1 ((m ((c.tc : Thread nD τ).loc main_arg4)) : IVec S200000 32) shapeCasts_S200000_S2x100000x1 := by
  show StableHlo.after hostOps0 (fun b => m (c, b)) (Proc.devRef .tc main_call0_v30) = _
  after_results_simp
  rfl

/-- Entry (a, n, e) of the re-laid table is entry (a·100000 + n, e) of the second result. -/
theorem V_slabs_apply (c : Dev nD) (a : Fin 2) (n : Fin 100000) (e : Fin 256) :
    (V m c main_call0_v29 : FVec F S2x100000x256 .f32) (ix3 a n e)
      = (V m c main_v0_1 : FVec F S200000x256 .f32)
          (ix2 (⟨a.val * 100000 + n.val, by have := a.isLt; have := n.isLt; omega⟩ : Fin 200000) e) := by
  rw [V_slabs]
  exact shapeCast_apply (s := S200000x256) (t := S2x100000x256) (V m c main_v0_1 : FVec F S200000x256 .f32)
    shapeCasts_S200000x256_S2x100000x256 (ix3 a n e) (ix2 _ e) (by
      rw [Shape.rowMajor_val_two, Shape.rowMajor_val_three]
      rfl)

/-- Entry (a, n, 0) of the re-laid labels is label a·100000 + n. -/
theorem V_labelSlabs_apply (c : Dev nD) (a : Fin 2) (n : Fin 100000) :
    (V m c main_call0_v30 : IVec S2x100000x1 32) (ix3 a n (0 : Fin 1))
      = ((m ((c.tc : Thread nD τ).loc main_arg4)) : IVec S200000 32)
          (ix1 (⟨a.val * 100000 + n.val, by have := a.isLt; have := n.isLt; omega⟩ : Fin 200000)) := by
  rw [V_labelSlabs]
  exact shapeCast_apply (s := S200000) (t := S2x100000x1) ((m ((c.tc : Thread nD τ).loc main_arg4)) : IVec S200000 32)
    shapeCasts_S200000_S2x100000x1 (ix3 a n (0 : Fin 1)) (ix1 _) (by
      rw [Shape.rowMajor_val_one, Shape.rowMajor_val_three]
      show a.val * 100000 + n.val = (a.val * 100000 + n.val) * 1 + 0
      omega)

/-- Position r of the rows block of tile j of core a is row (a, j, r) of the updated table. -/
theorem iblk0_apply (c : Dev nD) (t : Fin cfg0.N) (a : Fin 2) (j : Fin 25) (ht : t.val = a.val * 25 + j.val)
    (r : Fin 4000) (e : Fin 256) :
    (iblk m c 0 t : Vec F S1x4000x256 .f32) (ix3 (0 : Fin 1) r e) = tbl m c (ix2 (row a j r) e) := by
  obtain ⟨h0, h1, h2⟩ := index0 t
  have ha := a.isLt; have hj := j.isLt; have hr := r.isLt
  have hn : j.val * 4000 + r.val < 100000 := by omega
  rw [← V_table]
  unfold iblk
  rw [View.read_apply]
  show V m c main_call0_v29 (((cfg0.win 0).blk t).view.emb (ix3 (0 : Fin 1) r e)) = _
  -- the block's coordinate on an axis is its position on that axis times its extent there, plus the coordinate inside
  have hemb : ((cfg0.win 0).blk t).view.emb (ix3 (0 : Fin 1) r e)
      = ix3 a (⟨j.val * 4000 + r.val, hn⟩ : Fin 100000) e := by
    funext ax; apply Fin.ext
    match ax with
    | ⟨0, _⟩ => show win0_0.index t 0 * 1 + 1 * 0 = a.val; rw [h0]; omega
    | ⟨1, _⟩ => show win0_0.index t 1 * 4000 + 1 * r.val = j.val * 4000 + r.val; rw [h1]; omega
    | ⟨2, _⟩ => show win0_0.index t 2 * 256 + 1 * e.val = e.val; rw [h2]; omega
  refine (congrArg (V m c main_call0_v29) hemb).trans ?_
  refine (V_slabs_apply m c a _ e).trans ?_
  exact congrArg (fun n : Fin 200000 => (V m c main_v0_1 : FVec F S200000x256 .f32) (ix2 n e))
    (Fin.ext (by simp only [Cert.SegSpec.row]; omega))

/-- Position r of the labels block of tile j of core a is the label of row (a, j, r). -/
theorem iblk1_apply (c : Dev nD) (t : Fin cfg0.N) (a : Fin 2) (j : Fin 25) (ht : t.val = a.val * 25 + j.val)
    (r : Fin 4000) :
    (iblk m c 1 t : Vec F S1x4000x1 .i32) (ix3 (0 : Fin 1) r (0 : Fin 1))
      = ((m ((c.tc : Thread nD τ).loc main_arg4)) : IVec S200000 32) (ix1 (row a j r)) := by
  obtain ⟨h0, h1, h2⟩ := index1 t
  have ha := a.isLt; have hj := j.isLt; have hr := r.isLt
  have hn : j.val * 4000 + r.val < 100000 := by omega
  unfold iblk
  rw [View.read_apply]
  show V m c main_call0_v30 (((cfg0.win 1).blk t).view.emb (ix3 (0 : Fin 1) r (0 : Fin 1))) = _
  have hemb : ((cfg0.win 1).blk t).view.emb (ix3 (0 : Fin 1) r (0 : Fin 1))
      = ix3 a (⟨j.val * 4000 + r.val, hn⟩ : Fin 100000) (0 : Fin 1) := by
    funext ax; apply Fin.ext
    match ax with
    | ⟨0, _⟩ => show win0_1.index t 0 * 1 + 1 * 0 = a.val; rw [h0]; omega
    | ⟨1, _⟩ => show win0_1.index t 1 * 4000 + 1 * r.val = j.val * 4000 + r.val; rw [h1]; omega
    | ⟨2, _⟩ => show win0_1.index t 2 * 1 + 1 * 0 = 0; rw [h2]
  refine (congrArg (V m c main_call0_v30) hemb).trans ?_
  refine (V_labelSlabs_apply m c a _).trans ?_
  exact congrArg (fun n : Fin 200000 => ((m ((c.tc : Thread nD τ).loc main_arg4)) : IVec S200000 32) (ix1 n))
    (Fin.ext (by simp only [Cert.SegSpec.row]; omega))

end Cert.KernelIdeal.KBlocks

end
-- ==== Proof.KTail.lean ====
/-
  The host operations after the region, read at an entry.

  After the region the host adds the two cores' sums [2, 1000, 256] slab to slab and the two cores' counts
  [2, 1, 1000] likewise, turns the counts into a column, divides each sum by the larger of its count and one, and
  selects that quotient where a cluster was touched and the old mean elsewhere; the touched mask is computed from
  the targets exactly as the reference computes it. The first two results are not written after the region.
-/
import proofs.«421042_j68444598829641_3_alg».proof.Proof.Gen.KernelIdeal.Frame
import proofs.«421042_j68444598829641_3_alg».proof.Proof.RefRead
import proofs.«421042_j68444598829641_3_alg».proof.Proof.LibRank3Layout
import Idealize.ShloMosaic.Lib.Pipeline.Value
import Idealize.ShloMosaic.Lib.StableHlo.Run
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KTail

open Cert.KernelIdeal Cert.KernelIdeal.Gen

section AnyF
variable {F : FTy → Type} [FloatOps F]
variable (m : (ℓ : Loc nD τ sig) → Buf (Elt F) ℓ)

/-- The operations after the region do not write the first result. -/
theorem tail_logits (c : Dev nD) :
    Pipeline.afterTail₀ cfgs (dats m) 0 (V0 m) [hostOps1] c main_v0_0 = V m c main_v0_0 := by
  unfold Pipeline.afterTail₀
  rw [StableHlo.after_of_forall_not_mem (b := Proc.devRef .tc main_v0_0) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))),
    Pipeline.withArrays_of_ne _ c (V0 m c) _ main_v0_0 (by exact (by decide : ∀ w, Pipeline.arrRef spec0 w ≠ main_v0_0))]

/-- The operations after the region do not write the second result. -/
theorem tail_table (c : Dev nD) :
    Pipeline.afterTail₀ cfgs (dats m) 0 (V0 m) [hostOps1] c main_v0_1 = V m c main_v0_1 := by
  unfold Pipeline.afterTail₀
  rw [StableHlo.after_of_forall_not_mem (b := Proc.devRef .tc main_v0_1) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))),
    Pipeline.withArrays_of_ne _ c (V0 m c) _ main_v0_1 (by exact (by decide : ∀ w, Pipeline.arrRef spec0 w ≠ main_v0_1))]

/-- The touched mask the operations after the region compute from the targets. -/
def tailMask (x5 : (⟨S256, .i32⟩ : BufTy).Contents (Elt F)) : (⟨S1000x256, .i1⟩ : BufTy).Contents (Elt F) :=
  broadcastInDim S1000x256 ![0, 1] bcast_S1000x1_S1000x256_0_1
    (broadcastInDim S1000x1 ![0] bcast_S1000_S1000x1_0
      (Host.scatter scatter_S1000_S256x1_S256_n_0_0_1 (fun _ b => b)
        (broadcastInDim S1000 ![] bcast_S_S1000 (constantI S_ 1 0#1))
        (broadcastInDim S256x1 ![0] bcast_S256_S256x1_0
          (select (cmpi .slt x5 (broadcastInDim S256 ![] bcast_S_S256 (constantI S_ 32 0#32)))
            (addi x5 (broadcastInDim S256 ![] bcast_S_S256 (constantI S_ 32 1000#32))) x5))
        (broadcastInDim S256 ![] bcast_S_S256 (constantI S_ 1 1#1))))

/-- The two cores' sums added slab to slab. -/
def tailSum (s : (⟨S2x1000x256, .f32⟩ : BufTy).Contents (Elt F)) : (⟨S1000x256, .f32⟩ : BufTy).Contents (Elt F) :=
  addf
    (shapeCast S1000x256 (extractStridedSlice S1x1000x256 ![0, 0, 0] s slices_S2x1000x256_S1x1000x256_0_0_0)
      shapeCasts_S1x1000x256_S1000x256)
    (shapeCast S1000x256 (extractStridedSlice S1x1000x256 ![1, 0, 0] s slices_S2x1000x256_S1x1000x256_1_0_0)
      shapeCasts_S1x1000x256_S1000x256)

/-- The two cores' counts added, as a column, each no less than one, repeated along the row. -/
def tailDen (n : (⟨S2x1x1000, .f32⟩ : BufTy).Contents (Elt F)) : (⟨S1000x256, .f32⟩ : BufTy).Contents (Elt F) :=
  broadcastInDim S1000x256 ![0, 1] bcast_S1000x1_S1000x256_0_1
    (maximumf
      (shapeCast S1000x1
        (addf
          (shapeCast S1x1000 (extractStridedSlice S1x1x1000 ![0, 0, 0] n slices_S2x1x1000_S1x1x1000_0_0_0)
            shapeCasts_S1x1x1000_S1x1000)
          (shapeCast S1x1000 (extractStridedSlice S1x1x1000 ![1, 0, 0] n slices_S2x1x1000_S1x1x1000_1_0_0)
            shapeCasts_S1x1x1000_S1x1000))
        shapeCasts_S1x1000_S1000x1)
      (broadcastInDim S1000x1 ![] bcast_S_S1000x1 (constant S_ .f32 0x3F800000#32)))

/-- The third result from the two cores' sums and counts, the old means and the targets. -/
def tailMeans (s : (⟨S2x1000x256, .f32⟩ : BufTy).Contents (Elt F)) (n : (⟨S2x1x1000, .f32⟩ : BufTy).Contents (Elt F))
    (x2 : (⟨S1000x256, .f32⟩ : BufTy).Contents (Elt F)) (x5 : (⟨S256, .i32⟩ : BufTy).Contents (Elt F)) :
    (⟨S1000x256, .f32⟩ : BufTy).Contents (Elt F) :=
  select (tailMask (F := F) x5) (Host.divf (tailSum (F := F) s) (tailDen (F := F) n)) x2

set_option maxHeartbeats 4000000 in
/-- The third result as the operations after the region compute it, over any contents of the buffers. -/
theorem after_means (W : Valuation τ sig (Elt F)) :
    StableHlo.after hostOps1 W (Proc.devRef .tc main_v0_2)
      = tailMeans (F := F) (W (Proc.devRef .tc main_call0_v31_0)) (W (Proc.devRef .tc main_call0_v31_1))
          (W (Proc.devRef .tc main_arg2)) (W (Proc.devRef .tc main_arg5)) := by
  after_results_simp
  simp only [StableHlo.TRef.ofBuf, StableHlo.TRef.toBuf, cast_eq]
  unfold tailMeans tailMask tailSum tailDen
  rfl

end AnyF

variable (m : (ℓ : Loc nD τ sig) → Buf (Elt Ideal) ℓ)

/-- The two cores' sums after the region. -/
abbrev sums2 (c : Dev nD) : FVec Ideal S2x1000x256 .f32 := (dats m 0 c).arrAt 2 cfg0.N
/-- The two cores' counts after the region. -/
abbrev cnts2 (c : Dev nD) : FVec Ideal S2x1x1000 .f32 := (dats m 0 c).arrAt 3 cfg0.N

/-- The third result as an array: the quotient of the added sums by the added counts where touched. -/
theorem tail_means (c : Dev nD) :
    Pipeline.afterTail₀ cfgs (dats m) 0 (V0 m) [hostOps1] c main_v0_2
      = tailMeans (F := Ideal) (sums2 m c) (cnts2 m c) (m ((c.tc : Thread nD τ).loc main_arg2))
          (m ((c.tc : Thread nD τ).loc main_arg5)) := by
  unfold Pipeline.afterTail₀
  refine (after_means (F := Ideal) _).trans ?_
  rw [Pipeline.withArrays_of_ne _ c (V0 m c) _ main_arg5 (by exact (by decide : ∀ w, Pipeline.arrRef spec0 w ≠ main_arg5)),
    Pipeline.withArrays_of_ne _ c (V0 m c) _ main_arg2 (by exact (by decide : ∀ w, Pipeline.arrRef spec0 w ≠ main_arg2))]
  rw [show V0 m c (Proc.devRef .tc main_arg5) = m ((c.tc : Thread nD τ).loc main_arg5) from V_main_arg5 m c,
    show V0 m c (Proc.devRef .tc main_arg2) = m ((c.tc : Thread nD τ).loc main_arg2) from V_main_arg2 m c]
  rw [show Pipeline.withArrays (cfgs 0).spec c (V0 m c) (fun w => (dats m 0 c).arrAt w (cfgs 0).N)
        (Proc.devRef .tc main_call0_v31_0) = sums2 m c from Pipeline.withArrays_arr spec0 launch0.win.arr_inj c _ _ 2,
    show Pipeline.withArrays (cfgs 0).spec c (V0 m c) (fun w => (dats m 0 c).arrAt w (cfgs 0).N)
        (Proc.devRef .tc main_call0_v31_1) = cnts2 m c from Pipeline.withArrays_arr spec0 launch0.win.arr_inj c _ _ 3]

/-- The added sums at (k, e). -/
theorem tailSum_apply (s : FVec Ideal S2x1000x256 .f32) (k : Fin 1000) (e : Fin 256) :
    tailSum (F := Ideal) s (ix2 k e) = s (ix3 (0 : Fin 2) k e) + s (ix3 (1 : Fin 2) k e) := by
  unfold tailSum
  refine (addf_apply _ _ _).trans ?_
  refine congrArg₂ (· + ·) ?_ ?_
  · refine (shapeCast_apply _ shapeCasts_S1x1000x256_S1000x256 (ix2 k e) (ix3 (0 : Fin 1) k e) (by
      rw [Shape.rowMajor_val_three, Shape.rowMajor_val_two]
      show ((0 : Fin 1).val * 1000 + k.val) * 256 + e.val = k.val * 256 + e.val
      rw [Fin.val_zero, Nat.zero_mul, Nat.zero_add])).trans ?_
    exact extractStridedSlice_apply _ s slices_S2x1000x256_S1x1000x256_0_0_0 _ (ix3 (0 : Fin 2) k e) (fun a =>
      match a with
      | ⟨0, _⟩ => rfl
      | ⟨1, _⟩ => (Nat.zero_add _).symm
      | ⟨2, _⟩ => (Nat.zero_add _).symm)
  · refine (shapeCast_apply _ shapeCasts_S1x1000x256_S1000x256 (ix2 k e) (ix3 (0 : Fin 1) k e) (by
      rw [Shape.rowMajor_val_three, Shape.rowMajor_val_two]
      show ((0 : Fin 1).val * 1000 + k.val) * 256 + e.val = k.val * 256 + e.val
      rw [Fin.val_zero, Nat.zero_mul, Nat.zero_add])).trans ?_
    exact extractStridedSlice_apply _ s slices_S2x1000x256_S1x1000x256_1_0_0 _ (ix3 (1 : Fin 2) k e) (fun a =>
      match a with
      | ⟨0, _⟩ => rfl
      | ⟨1, _⟩ => (Nat.zero_add _).symm
      | ⟨2, _⟩ => (Nat.zero_add _).symm)

/-- One core's count of cluster k, read through the slice and the cast to a row. -/
theorem cntSlab_apply (n : FVec Ideal S2x1x1000 .f32) (j : Fin 2) (off : Fin 3 → Nat) (h : S2x1x1000.Slices off S1x1x1000)
    (hoff : off = ![j.val, 0, 0]) (k : Fin 1000) :
    shapeCast S1x1000 (extractStridedSlice S1x1x1000 off n h) shapeCasts_S1x1x1000_S1x1000 (ix2 (0 : Fin 1) k)
      = n (ix3 j (0 : Fin 1) k) := by
  subst hoff
  refine (shapeCast_apply _ shapeCasts_S1x1x1000_S1x1000 (ix2 (0 : Fin 1) k) (ix3 (0 : Fin 1) (0 : Fin 1) k) (by
    rw [Shape.rowMajor_val_three, Shape.rowMajor_val_two]
    show ((0 : Fin 1).val * 1 + (0 : Fin 1).val) * 1000 + k.val = (0 : Fin 1).val * 1000 + k.val
    rw [Fin.val_zero, Nat.zero_mul, Nat.zero_add])).trans ?_
  exact extractStridedSlice_apply _ n h _ (ix3 j (0 : Fin 1) k) (fun a =>
    match a with
    | ⟨0, _⟩ => (Nat.add_zero _).symm
    | ⟨1, _⟩ => rfl
    | ⟨2, _⟩ => (Nat.zero_add _).symm)

/-- The divisor at (k, e): the larger of cluster k's added counts and one. -/
theorem tailDen_apply (n : FVec Ideal S2x1x1000 .f32) (k : Fin 1000) (e : Fin 256) :
    tailDen (F := Ideal) n (ix2 k e)
      = FloatOps.maximumf (F := Ideal) (φ := .f32)
          (n (ix3 (0 : Fin 2) (0 : Fin 1) k) + n (ix3 (1 : Fin 2) (0 : Fin 1) k))
          (FloatOps.ofBits .f32 0x3F800000#32) := by
  unfold tailDen
  refine (broadcastInDim_apply _ bcast_S1000x1_S1000x256_0_1 _ (ix2 k e) (ix2 k (0 : Fin 1)) (fun a =>
    match a with
    | ⟨0, _⟩ => by show k.val = if (1000 : Nat) = 1 then 0 else k.val; rw [if_neg (by decide)]
    | ⟨1, _⟩ => by show 0 = if (1 : Nat) = 1 then 0 else e.val; rw [if_pos rfl])).trans ?_
  show FloatOps.maximumf (F := Ideal) (φ := .f32) _ _ = _
  refine congrArg₂ (FloatOps.maximumf (F := Ideal) (φ := .f32)) ?_ ?_
  · refine (shapeCast_apply _ shapeCasts_S1x1000_S1000x1 (ix2 k (0 : Fin 1)) (ix2 (0 : Fin 1) k) (by
      rw [Shape.rowMajor_val_two, Shape.rowMajor_val_two]
      show (0 : Fin 1).val * 1000 + k.val = k.val * 1 + (0 : Fin 1).val
      rw [Fin.val_zero, Nat.zero_mul, Nat.zero_add, Nat.mul_one, Nat.add_zero])).trans ?_
    refine (addf_apply _ _ _).trans ?_
    exact congrArg₂ (· + ·)
      (cntSlab_apply n (0 : Fin 2) _ slices_S2x1x1000_S1x1x1000_0_0_0 rfl k)
      (cntSlab_apply n (1 : Fin 2) _ slices_S2x1x1000_S1x1x1000_1_0_0 rfl k)
  · rfl

/-- The touched mask is the reference's, operation for operation. -/
theorem tailMask_eq (x5 : (⟨S256, .i32⟩ : BufTy).Contents (Elt Ideal)) :
    tailMask (F := Ideal) x5 = Cert.ReferenceIdeal.ReadP.val_main_call0_v0 (F := Ideal) x5 := by
  unfold tailMask Cert.ReferenceIdeal.ReadP.val_main_call0_v0 Cert.ReferenceIdeal.ReadP.val_main_v50
    Cert.ReferenceIdeal.ReadP.val_main_v49 Cert.ReferenceIdeal.ReadP.val_main_v48 Cert.ReferenceIdeal.ReadP.val_main_c_13
    Cert.ReferenceIdeal.ReadP.val_main_v47 Cert.ReferenceIdeal.ReadP.val_main_v46 Cert.ReferenceIdeal.ReadP.val_main_v45
    Cert.ReferenceIdeal.ReadP.val_main_v44 Cert.ReferenceIdeal.ReadP.val_main_c_12 Cert.ReferenceIdeal.ReadP.val_main_v43
    Cert.ReferenceIdeal.ReadP.val_main_v42 Cert.ReferenceIdeal.ReadP.val_main_c_11 Cert.ReferenceIdeal.ReadP.val_main_v41
    Cert.ReferenceIdeal.ReadP.val_main_c_10
  rfl

/-- The third result at (k, e). -/
theorem tail_means_apply (c : Dev nD) (k : Fin 1000) (e : Fin 256) :
    (Pipeline.afterTail₀ cfgs (dats m) 0 (V0 m) [hostOps1] c main_v0_2 : FVec Ideal S1000x256 .f32) (ix2 k e)
      = Scalar.select (Cert.ReferenceIdeal.ReadP.val_main_call0_v0 (F := Ideal) (m ((c.tc : Thread nD τ).loc main_arg5)) (ix2 k e))
          (FloatOps.hostDivf (F := Ideal) (φ := .f32)
            (sums2 m c (ix3 (0 : Fin 2) k e) + sums2 m c (ix3 (1 : Fin 2) k e))
            (FloatOps.maximumf (F := Ideal) (φ := .f32)
              (cnts2 m c (ix3 (0 : Fin 2) (0 : Fin 1) k) + cnts2 m c (ix3 (1 : Fin 2) (0 : Fin 1) k))
              (FloatOps.ofBits .f32 0x3F800000#32)))
          (((m ((c.tc : Thread nD τ).loc main_arg2)) : FVec Ideal S1000x256 .f32) (ix2 k e)) := by
  refine (congrFun (tail_means m c) (ix2 k e)).trans ?_
  unfold tailMeans
  refine (select_apply _ _ _ _).trans ?_
  rw [tailMask_eq]
  refine congrArg (fun q => Scalar.select _ q _) ?_
  show FloatOps.hostDivf (F := Ideal) (φ := .f32) _ _ = _
  exact congrArg₂ (FloatOps.hostDivf (F := Ideal) (φ := .f32)) (tailSum_apply (sums2 m c) k e) (tailDen_apply (cnts2 m c) k e)

end Cert.KernelIdeal.KTail

end
-- ==== Proof.KBody.lean ====
/-
  What one run of the kernel body leaves in its two accumulators, for any float values.

  At the first tile of a core the body clears both accumulators and then adds the tile's contribution to the cleared
  contents; at every later tile it adds the contribution to what the tile before left. So the sums accumulator ends
  at the sums payload of the tile's rows, its labels and the contents carried in (the zero block at a first tile), and
  the counts accumulator at the counts payload of the labels and the contents carried in.
-/
import proofs.«421042_j68444598829641_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KBody

open Cert.KernelIdeal Cert.KernelIdeal.Gen

variable {F : FTy → Type} [FloatOps F]

/-- The offsets of a whole-buffer access are all zero. -/
theorem hz3 : (![0, 0, 0] : Fin 3 → Nat) = fun _ => 0 := funext fun a => by fin_cases a <;> rfl

/-- A first tile: the sums accumulator ends at the tile's contribution added to the zero block. -/
theorem out_A_2 (c : Dev nD) (i : grid0.Coords) (arg2 : Memref sig .tc .vmem S1x4000x256 .f32) (harg2 : arg2.IsWhole) (arg3 : Memref sig .tc .vmem S1x4000x1 .i32) (harg3 : arg3.IsWhole) (arg4 : Memref sig .tc .vmem S1x1000x256 .f32) (harg4 : arg4.IsWhole) (arg5 : Memref sig .tc .vmem S1x1x1000 .f32) (harg5 : arg5.IsWhole) (hc0 : cond0_0 i)
    (x0 : Vec F S1x4000x256 .f32) (x1 : Vec F S1x4000x1 .i32) :
    out0_A_2 c i arg2 harg2 arg3 harg3 arg4 harg4 arg5 harg5 hc0 x0 x1 = k0_pay4 x0 x1 (k0_pay1 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x1000x256) hz3, View.readCov_unit_zero (S := S1x1000x256) _ hz3]
  simp only [View.readAt_eq_ld, harg2.read_unread, harg3.read_unread, View.ld_unit_zero (S := S1x4000x256) hz3,
    View.ld_unit_zero (S := S1x4000x1) hz3, View.ld_unit_zero (S := S1x1000x256) hz3]

/-- A first tile: the counts accumulator ends at the tile's count added to the zero row. -/
theorem out_A_3 (c : Dev nD) (i : grid0.Coords) (arg2 : Memref sig .tc .vmem S1x4000x256 .f32) (harg2 : arg2.IsWhole) (arg3 : Memref sig .tc .vmem S1x4000x1 .i32) (harg3 : arg3.IsWhole) (arg4 : Memref sig .tc .vmem S1x1000x256 .f32) (harg4 : arg4.IsWhole) (arg5 : Memref sig .tc .vmem S1x1x1000 .f32) (harg5 : arg5.IsWhole) (hc0 : cond0_0 i)
    (x0 : Vec F S1x4000x256 .f32) (x1 : Vec F S1x4000x1 .i32) :
    out0_A_3 c i arg2 harg2 arg3 harg3 arg4 harg4 arg5 harg5 hc0 x0 x1 = k0_pay5 x1 (k0_pay2 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x1000) hz3, View.readCov_unit_zero (S := S1x1x1000) _ hz3]
  simp only [View.readAt_eq_ld, harg3.read_unread, View.ld_unit_zero (S := S1x4000x1) hz3,
    View.ld_unit_zero (S := S1x1x1000) hz3]

/-- A later tile: the sums accumulator ends at the tile's contribution added to what it held. -/
theorem out_B_2 (c : Dev nD) (i : grid0.Coords) (arg2 : Memref sig .tc .vmem S1x4000x256 .f32) (harg2 : arg2.IsWhole) (arg3 : Memref sig .tc .vmem S1x4000x1 .i32) (harg3 : arg3.IsWhole) (arg4 : Memref sig .tc .vmem S1x1000x256 .f32) (harg4 : arg4.IsWhole) (arg5 : Memref sig .tc .vmem S1x1x1000 .f32) (harg5 : arg5.IsWhole) (hc0 : ¬cond0_0 i)
    (x0 : Vec F S1x4000x256 .f32) (x1 : Vec F S1x4000x1 .i32) (xo2 : Vec F S1x1000x256 .f32) (xo3 : Vec F S1x1x1000 .f32) :
    out0_B_2 c i arg2 harg2 arg3 harg3 arg4 harg4 arg5 harg5 hc0 x0 x1 xo2 xo3 = k0_pay4 x0 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread,
    View.ld_unit_zero (S := S1x4000x256) hz3, View.ld_unit_zero (S := S1x4000x1) hz3, View.ld_unit_zero (S := S1x1000x256) hz3]

/-- A later tile: the counts accumulator ends at the tile's count added to what it held. -/
theorem out_B_3 (c : Dev nD) (i : grid0.Coords) (arg2 : Memref sig .tc .vmem S1x4000x256 .f32) (harg2 : arg2.IsWhole) (arg3 : Memref sig .tc .vmem S1x4000x1 .i32) (harg3 : arg3.IsWhole) (arg4 : Memref sig .tc .vmem S1x1000x256 .f32) (harg4 : arg4.IsWhole) (arg5 : Memref sig .tc .vmem S1x1x1000 .f32) (harg5 : arg5.IsWhole) (hc0 : ¬cond0_0 i)
    (x0 : Vec F S1x4000x256 .f32) (x1 : Vec F S1x4000x1 .i32) (xo2 : Vec F S1x1000x256 .f32) (xo3 : Vec F S1x1x1000 .f32) :
    out0_B_3 c i arg2 harg2 arg3 harg3 arg4 harg4 arg5 harg5 hc0 x0 x1 xo2 xo3 = k0_pay5 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz3]
  simp only [View.readAt_eq_ld, harg3.read_unread, harg5.read_unread,
    View.ld_unit_zero (S := S1x4000x1) hz3, View.ld_unit_zero (S := S1x1x1000) hz3]

end Cert.KernelIdeal.KBody

end
-- ==== Proof.LibMatmulColsByCols.lean ====
/-
  The matrix product that contracts the FIRST axis of both operands, read at an index, at the ideal values.

  A k×m matrix A and a k×n matrix B, both contracted along their rows' axis, give the m×n matrix whose entry (r, h) is
  the sum over the contracted coordinate l of A(l, r)·B(l, h): the product of the transpose of A with B. Into a zero
  accumulator, and at the ideal values, where no rounding and no order of summation is left, the product read at (r, h)
  is exactly that sum. The four coordinate lemmas say where each operand is read: the contracted axis takes the
  contraction's one coordinate, the other axis the matching coordinate of the result.
-/
import Idealize.ShloMosaic.PureOps.Ideal.Laws
import Idealize.ShloMosaic.Lib.ValueIdx

noncomputable section

namespace Idealize.ShloMosaic.MatmulColsByCols

open Idealize.ShloMosaic Idealize.ShloMosaic.ValueIdx

variable {m k n : ℕ}

/-- The dimension numbers `[0] × [0]`, kept axes `[1]` and `[1]`, no batch axis. -/
abbrev dims (w : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ := ⟨[0], [0], [1], [1], [], [], w⟩

/-- The left operand's contracted axis reads the contraction's coordinate. -/
theorem lhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 0).val = (q ⟨0, Nat.one_pos⟩).val :=
  (dims w).lhsIdx_val_of_single rfl j q

/-- The left operand's kept axis reads the result's first coordinate. -/
theorem lhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 1).val = (j 0).val := by
  unfold DotDims.lhsIdx
  rw [dif_neg (show ¬(1 : Fin 2) ∈ (dims w).lhsBatch from List.not_mem_nil),
    dif_pos (show (1 : Fin 2) ∈ (dims w).lhsNonContracting from List.mem_singleton.mpr rfl)]
  rfl

/-- The right operand's contracted axis reads the contraction's coordinate. -/
theorem rhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- A kernel's product of the transpose of a k×m matrix with a k×n matrix into the zero accumulator, read at `(r, h)`. -/
theorem matmul_cols_apply {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (r : Fin m) (h : Fin n) :
    FloatOps.matmul (⟨[0], [0], [1], [1], [], [], w⟩ : DotDims _ _ _) prec A B
        (constant ⟨2, ![m, n]⟩ .f32 0x00000000#32) (ix2 r h)
      = ∑ l : Fin k, A (ix2 l r) * B (ix2 l h) := by
  rw [Ideal.matmul_constant_zero_apply, ← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 l r := by
    funext ax; apply Fin.ext
    match ax with
    | ⟨0, _⟩ => exact (lhs_0 w _ _).trans c2
    | ⟨1, _⟩ => exact lhs_1 w _ _
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

end Idealize.ShloMosaic.MatmulColsByCols

end
-- ==== Proof.KPayload.lean ====
/-
  The kernel body's arithmetic read at one entry, over the extended reals.

  The body compares each of the tile's 4000 label words with the cluster numbers 0 … 999 and multiplies the resulting
  0/1 matrix, transposed, into the tile's rows: entry (k, e) of the product is the sum over the positions r of the
  weight of label r in segment k times entry (r, e) of the rows, and it is added to the accumulator's entry. The
  counts are the product of a row of ones with the same 0/1 matrix: entry k is the sum of the weights. The changes of
  float format in between are the identity on the extended reals, and the blocks the body clears with are zero.
-/
import proofs.«421042_j68444598829641_3_alg».proof.Proof.Gen.KernelIdeal.Skeleton
import proofs.«421042_j68444598829641_3_alg».proof.Proof.SegSpec
import proofs.«421042_j68444598829641_3_alg».proof.Proof.LibRank3Layout
import proofs.«421042_j68444598829641_3_alg».proof.Proof.LibMatmulColsByCols
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.KernelIdeal.KPayload

open Cert.KernelIdeal Cert.KernelIdeal.Gen Cert.SegSpec
open Idealize.ShloMosaic.Rank3Layout Idealize.ShloMosaic.MatmulColsByCols

/-- The block the sums accumulator is cleared with is zero. -/
theorem pay1_apply (i : S1x1000x256.Idx) : k0_pay1 (F := Ideal) i = 0 := by
  show Ideal.ofBits .f32 0x00000000#32 = 0
  exact Ideal.ofBits_zero_f32

/-- The row the counts accumulator is cleared with is zero. -/
theorem pay2_apply (i : S1x1x1000.Idx) : k0_pay2 (F := Ideal) i = 0 := by
  show Ideal.ofBits .f32 0x00000000#32 = 0
  exact Ideal.ofBits_zero_f32

/-! ## The 0/1 weight of one label word -/

/-- A cluster number below 1000, written as a 32-bit word, reads back signed as itself. -/
theorem toInt_ofNat_small (k : Fin 1000) : (BitVec.ofNat 32 k.val).toInt = (k.val : ℤ) := by
  have hk := k.isLt
  rw [BitVec.toInt_ofNat', Int.bmod_def]
  omega

/-- The comparison bit of two words, widened to 32 bits and read signed, is one when they are equal and zero otherwise. -/
theorem cmpi_eq_word (a b : BitVec 32) : ((IntOp.cmpi .eq a b).setWidth 32).toInt = if a = b then 1 else 0 := by
  show ((BitVec.ofBool (a == b)).setWidth 32).toInt = _
  by_cases h : a = b
  · rw [if_pos h, beq_iff_eq.mpr h]; decide
  · rw [if_neg h, beq_eq_false_iff_ne.mpr h]; decide

/-- Compared with the word of cluster number k, a label word gives its weight in segment k: two words are equal exactly
    when their signed values are. -/
theorem hot_word (w : BitVec 32) (k : Fin 1000) :
    ((((IntOp.cmpi .eq w (BitVec.ofNat 32 k.val)).setWidth 32).toInt : ℝ) : EReal) = hot w k := by
  rw [cmpi_eq_word]
  unfold hot
  by_cases h : w = BitVec.ofNat 32 k.val
  · have he : w.toInt = (k.val : ℤ) := by rw [h]; exact toInt_ofNat_small k
    rw [if_pos h, if_pos he]
    simp
  · have hne : ¬ w.toInt = (k.val : ℤ) := fun he => h (BitVec.eq_of_toInt_eq (he.trans (toInt_ofNat_small k).symm))
    rw [if_neg h, if_neg hne]
    simp

/-- The bf16 pattern of 1.0 denotes one. -/
theorem one_bf16 : Ideal.ofBits .bf16 0x3F80#16 = 1 := IdealRules.sign_bit.ideal_onePat .bf16

/-! ## The 0/1 matrix and the two products, read at an entry -/

/-- Entry (r, k) of the 0/1 matrix: the weight of label r in segment k. The label column is repeated along the clusters,
    the row of cluster numbers 0 … 999 along the positions, and the two are compared entry by entry. -/
theorem pay3_apply (x1 : Vec Ideal S1x4000x1 .i32) (r : Fin 4000) (k : Fin 1000) :
    k0_pay3 x1 (ix2 r k) = hot (x1 (ix3 (0 : Fin 1) r (0 : Fin 1))) k := by
  have h9 : broadcastTo S4000x1000 (shapeCast S4000x1 x1 shapeCasts_S1x4000x1_S4000x1) broadcasts_S4000x1_S4000x1000 (ix2 r k)
      = x1 (ix3 (0 : Fin 1) r (0 : Fin 1)) := by
    refine (broadcastTo_apply _ _ (ix2 r k) (ix2 r (0 : Fin 1)) fun ax => ?_).trans ?_
    · match ax with
      | ⟨0, _⟩ => rfl
      | ⟨1, _⟩ => rfl
    · exact shapeCast_abc_nc_apply x1 _ (0 : Fin 1) r (0 : Fin 1) r (by simp)
  have h10 : broadcastTo S4000x1000 (iota .tc S1x1000 32 [1] iota_S1x1000_d1_w32) broadcasts_S1x1000_S4000x1000 (ix2 r k)
      = BitVec.ofNat 32 k.val := by
    refine (broadcastTo_apply _ _ (ix2 r k) (ix2 (0 : Fin 1) k) fun ax => ?_).trans ?_
    · match ax with
      | ⟨0, _⟩ => rfl
      | ⟨1, _⟩ => rfl
    · show BitVec.ofNat 32 (0 * 1000 + k.val) = BitVec.ofNat 32 k.val
      rw [Nat.zero_mul, Nat.zero_add]
  show ((((IntOp.cmpi .eq (broadcastTo S4000x1000 (shapeCast S4000x1 x1 shapeCasts_S1x4000x1_S4000x1) broadcasts_S4000x1_S4000x1000 (ix2 r k))
      (broadcastTo S4000x1000 (iota .tc S1x1000 32 [1] iota_S1x1000_d1_w32) broadcasts_S1x1000_S4000x1000 (ix2 r k))).setWidth 32).toInt : ℝ) : EReal) = _
  rw [h9, h10]
  exact hot_word _ k

/-- The body's product along the positions, read at (k, e): the sum over the positions r of A(r, k)·B(r, e). -/
theorem dot_sums_apply (A : FVec Ideal S4000x1000 .bf16) (B : FVec Ideal S4000x256 .bf16) (k : Fin 1000) (e : Fin 256) :
    matmul dot_S4000x1000_S4000x256_S1000x256_0_0_1_1_n_n none A B (constant (F := Ideal) S1000x256 .f32 0x00000000#32) (ix2 k e)
      = ∑ r : Fin 4000, A (ix2 r k) * B (ix2 r e) :=
  matmul_cols_apply dot_S4000x1000_S4000x256_S1000x256_0_0_1_1_n_n_wf none A B k e

/-- The body's product of a row with the 0/1 matrix, read at (0, k): the sum over the positions r of A(0, r)·B(r, k). -/
theorem dot_counts_apply (A : FVec Ideal S1x4000 .bf16) (B : FVec Ideal S4000x1000 .bf16) (k : Fin 1000) :
    matmul dot_S1x4000_S4000x1000_S1x1000_1_0_0_1_n_n none A B (constant (F := Ideal) S1x1000 .f32 0x00000000#32) (ix2 (0 : Fin 1) k)
      = ∑ r : Fin 4000, A (ix2 (0 : Fin 1) r) * B (ix2 r k) :=
  matmul_plain_apply dot_S1x4000_S4000x1000_S1x1000_1_0_0_1_n_n_wf none A B (0 : Fin 1) k

/-- Entry (k, e) of the new sums: the accumulator's entry plus the tile's weighted rows. -/
theorem pay4_apply (x0 : Vec Ideal S1x4000x256 .f32) (x1 : Vec Ideal S1x4000x1 .i32) (acc : Vec Ideal S1x1000x256 .f32)
    (k : Fin 1000) (e : Fin 256) :
    k0_pay4 x0 x1 acc (ix3 (0 : Fin 1) k e)
      = acc (ix3 (0 : Fin 1) k e) + ∑ r : Fin 4000, hot (x1 (ix3 (0 : Fin 1) r (0 : Fin 1))) k * x0 (ix3 (0 : Fin 1) r e) := by
  have h16 : shapeCast S1000x256 acc shapeCasts_S1x1000x256_S1000x256 (ix2 k e) = acc (ix3 (0 : Fin 1) k e) :=
    shapeCast_abc_nc_apply acc _ (0 : Fin 1) k e k (by simp)
  have h17 : matmul dot_S4000x1000_S4000x256_S1000x256_0_0_1_1_n_n none (k0_pay3 x1)
        (truncf .bf16 (shapeCast S4000x256 x0 shapeCasts_S1x4000x256_S4000x256) bitsLt_bf16_f32)
        (constant (F := Ideal) S1000x256 .f32 0x00000000#32) (ix2 k e)
      = ∑ r : Fin 4000, hot (x1 (ix3 (0 : Fin 1) r (0 : Fin 1))) k * x0 (ix3 (0 : Fin 1) r e) := by
    refine (dot_sums_apply _ _ k e).trans (Finset.sum_congr rfl fun r _ => ?_)
    rw [pay3_apply, truncf_apply, shapeCast_abc_nc_apply x0 _ (0 : Fin 1) r e r (by simp)]
  show shapeCast S1x1000x256 (addf (shapeCast S1000x256 acc shapeCasts_S1x1000x256_S1000x256)
      (matmul dot_S4000x1000_S4000x256_S1000x256_0_0_1_1_n_n none (k0_pay3 x1)
        (truncf .bf16 (shapeCast S4000x256 x0 shapeCasts_S1x4000x256_S4000x256) bitsLt_bf16_f32)
        (constant (F := Ideal) S1000x256 .f32 0x00000000#32))) shapeCasts_S1000x256_S1x1000x256 (ix3 (0 : Fin 1) k e) = _
  refine (shapeCast_nc_abc_apply _ _ (0 : Fin 1) k e k (by simp)).trans ?_
  rw [addf_apply, h16, h17]

/-- Entry k of the new counts: the accumulator's entry plus the tile's weights. -/
theorem pay5_apply (x1 : Vec Ideal S1x4000x1 .i32) (acc : Vec Ideal S1x1x1000 .f32) (k : Fin 1000) :
    k0_pay5 x1 acc (ix3 (0 : Fin 1) (0 : Fin 1) k)
      = acc (ix3 (0 : Fin 1) (0 : Fin 1) k) + ∑ r : Fin 4000, hot (x1 (ix3 (0 : Fin 1) r (0 : Fin 1))) k := by
  have h24 : shapeCast S1x1000 acc shapeCasts_S1x1x1000_S1x1000 (ix2 (0 : Fin 1) k) = acc (ix3 (0 : Fin 1) (0 : Fin 1) k) :=
    shapeCast_abc_nc_apply acc _ (0 : Fin 1) (0 : Fin 1) k (0 : Fin 1) (by simp)
  have h25 : matmul dot_S1x4000_S4000x1000_S1x1000_1_0_0_1_n_n none
        (broadcast S1x4000 (Scalar.ofBits (F := Ideal) .bf16 0x3F80#16)) (k0_pay3 x1)
        (constant (F := Ideal) S1x1000 .f32 0x00000000#32) (ix2 (0 : Fin 1) k)
      = ∑ r : Fin 4000, hot (x1 (ix3 (0 : Fin 1) r (0 : Fin 1))) k := by
    refine (dot_counts_apply _ _ k).trans (Finset.sum_congr rfl fun r _ => ?_)
    rw [pay3_apply]
    show Ideal.ofBits .bf16 0x3F80#16 * _ = _
    rw [one_bf16, one_mul]
  show shapeCast S1x1x1000 (addf (shapeCast S1x1000 acc shapeCasts_S1x1x1000_S1x1000)
      (matmul dot_S1x4000_S4000x1000_S1x1000_1_0_0_1_n_n none
        (broadcast S1x4000 (Scalar.ofBits (F := Ideal) .bf16 0x3F80#16)) (k0_pay3 x1)
        (constant (F := Ideal) S1x1000 .f32 0x00000000#32))) shapeCasts_S1x1000_S1x1x1000 (ix3 (0 : Fin 1) (0 : Fin 1) k) = _
  refine (shapeCast_ab_a1b_apply _ _ (0 : Fin 1) (0 : Fin 1) k).trans ?_
  rw [addf_apply, h24, h25]

end Cert.KernelIdeal.KPayload

end
-- ==== Proof.KAccum.lean ====
/-
  What the region leaves in its two result arrays, over the extended reals.

  Each core clears its accumulators at its first tile and adds one tile's part at each of its 25 tiles; the
  accumulators are written back once, after the core's last tile, into slab a of the result arrays. So entry
  (a, k, e) of the sums array ends at the sum over the 25 tiles of core a of the tile's part of segment sum (k, e)
  of the updated table, and entry (a, 0, k) of the counts array at the sum of the tiles' parts of segment count k.
  The running contents are followed by induction on the grid point: after point n the accumulators hold the parts
  of tiles 0 … n mod 25 of core n div 25.
-/
import proofs.«421042_j68444598829641_3_alg».proof.Proof.Gen.KernelIdeal.Frame
import proofs.«421042_j68444598829641_3_alg».proof.Proof.SegSpec
import proofs.«421042_j68444598829641_3_alg».proof.Proof.KBody
import proofs.«421042_j68444598829641_3_alg».proof.Proof.KPayload
import proofs.«421042_j68444598829641_3_alg».proof.Proof.KBlocks
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.KAccum

open Cert.KernelIdeal Cert.KernelIdeal.Gen Cert.SegSpec Cert.KernelIdeal.KBlocks

variable (m : (ℓ : Loc nD τ sig) → Buf (Elt Ideal) ℓ)

/-- The labels, by row. -/
abbrev lab (c : Dev nD) : Fin 200000 → BitVec 32 := fun n => ((m ((c.tc : Thread nD τ).loc main_arg4)) : IVec S200000 32) (ix1 n)
/-- The updated table, by row and column. -/
abbrev tb (c : Dev nD) : Fin 200000 → Fin 256 → EReal := fun n e => tbl m c (ix2 n e)

/-- The rows block of a point, at its literal type. -/
abbrev rowsBlk (c : Dev nD) (t : Fin cfg0.N) : Vec Ideal S1x4000x256 .f32 := iblk m c 0 t
/-- The labels block of a point, at its literal type. -/
abbrev labsBlk (c : Dev nD) (t : Fin cfg0.N) : Vec Ideal S1x4000x1 .i32 := iblk m c 1 t

/-! ## One point -/

/-- The weighted rows of the blocks of tile j of core a are that tile's part of the segment sum. -/
theorem blocks_tileSum (c : Dev nD) (t : Fin cfg0.N) (a : Fin 2) (j : Fin 25) (ht : t.val = a.val * 25 + j.val)
    (k : Fin 1000) (e : Fin 256) :
    ∑ r : Fin 4000, hot (labsBlk m c t (ix3 (0 : Fin 1) r (0 : Fin 1))) k * rowsBlk m c t (ix3 (0 : Fin 1) r e)
      = tileSum (lab m c) (tb m c) a j k e := by
  unfold tileSum
  refine Finset.sum_congr rfl fun r _ => ?_
  have e1 : labsBlk m c t (ix3 (0 : Fin 1) r (0 : Fin 1)) = lab m c (row a j r) := iblk1_apply m c t a j ht r
  have e0 : rowsBlk m c t (ix3 (0 : Fin 1) r e) = tb m c (row a j r) e := iblk0_apply m c t a j ht r e
  rw [e1, e0]

/-- The weights of the labels block of tile j of core a are that tile's part of the segment count. -/
theorem blocks_tileCnt (c : Dev nD) (t : Fin cfg0.N) (a : Fin 2) (j : Fin 25) (ht : t.val = a.val * 25 + j.val)
    (k : Fin 1000) :
    ∑ r : Fin 4000, hot (labsBlk m c t (ix3 (0 : Fin 1) r (0 : Fin 1))) k = tileCnt (lab m c) a j k := by
  unfold tileCnt
  refine Finset.sum_congr rfl fun r _ => ?_
  have e1 : labsBlk m c t (ix3 (0 : Fin 1) r (0 : Fin 1)) = lab m c (row a j r) := iblk1_apply m c t a j ht r
  rw [e1]

/-- After a core's first tile the sums accumulator holds that tile's part. -/
theorem sums_first (c : Dev nD) (t : Fin cfg0.N) (a : Fin 2) (j : Fin 25) (ht : t.val = a.val * 25 + j.val)
    (h0 : t.val % 25 = 0) (k : Fin 1000) (e : Fin 256) :
    ((outsAt0 m c t.val t.isLt).1 : Vec Ideal S1x1000x256 .f32) (ix3 (0 : Fin 1) k e)
      = tileSum (lab m c) (tb m c) a j k e := by
  rw [outsAt0_A m c t h0]
  dsimp only
  rw [KBody.out_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t)]
  refine (KPayload.pay4_apply (rowsBlk m c t) (labsBlk m c t) (k0_pay1 (F := Ideal)) k e).trans ?_
  rw [KPayload.pay1_apply, zero_add]
  exact blocks_tileSum m c t a j ht k e

/-- After a later tile the sums accumulator holds what it held plus that tile's part. -/
theorem sums_later (c : Dev nD) (t : Fin cfg0.N) (a : Fin 2) (j : Fin 25) (ht : t.val = a.val * 25 + j.val)
    (h0 : ¬t.val % 25 = 0) (k : Fin 1000) (e : Fin 256) :
    ((outsAt0 m c t.val t.isLt).1 : Vec Ideal S1x1000x256 .f32) (ix3 (0 : Fin 1) k e)
      = ((outsAt0 m c (t.val - 1) (Nat.lt_of_le_of_lt (Nat.sub_le _ _) t.isLt)).1 : Vec Ideal S1x1000x256 .f32) (ix3 (0 : Fin 1) k e)
        + tileSum (lab m c) (tb m c) a j k e := by
  rw [outsAt0_B m c t h0]
  dsimp only
  rw [KBody.out_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2]
  refine (KPayload.pay4_apply (rowsBlk m c t) (labsBlk m c t) (outsAt0 m c (t.val - 1) (Nat.lt_of_le_of_lt (Nat.sub_le _ _) t.isLt)).1 k e).trans ?_
  rw [blocks_tileSum m c t a j ht k e]

/-- After a core's first tile the counts accumulator holds that tile's part. -/
theorem cnts_first (c : Dev nD) (t : Fin cfg0.N) (a : Fin 2) (j : Fin 25) (ht : t.val = a.val * 25 + j.val)
    (h0 : t.val % 25 = 0) (k : Fin 1000) :
    ((outsAt0 m c t.val t.isLt).2 : Vec Ideal S1x1x1000 .f32) (ix3 (0 : Fin 1) (0 : Fin 1) k)
      = tileCnt (lab m c) a j k := by
  rw [outsAt0_A m c t h0]
  dsimp only
  rw [KBody.out_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)]
  refine (KPayload.pay5_apply (labsBlk m c t) (k0_pay2 (F := Ideal)) k).trans ?_
  rw [KPayload.pay2_apply, zero_add]
  exact blocks_tileCnt m c t a j ht k

/-- After a later tile the counts accumulator holds what it held plus that tile's part. -/
theorem cnts_later (c : Dev nD) (t : Fin cfg0.N) (a : Fin 2) (j : Fin 25) (ht : t.val = a.val * 25 + j.val)
    (h0 : ¬t.val % 25 = 0) (k : Fin 1000) :
    ((outsAt0 m c t.val t.isLt).2 : Vec Ideal S1x1x1000 .f32) (ix3 (0 : Fin 1) (0 : Fin 1) k)
      = ((outsAt0 m c (t.val - 1) (Nat.lt_of_le_of_lt (Nat.sub_le _ _) t.isLt)).2 : Vec Ideal S1x1x1000 .f32) (ix3 (0 : Fin 1) (0 : Fin 1) k)
        + tileCnt (lab m c) a j k := by
  rw [outsAt0_B m c t h0]
  dsimp only
  rw [KBody.out_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2]
  refine (KPayload.pay5_apply (labsBlk m c t) (outsAt0 m c (t.val - 1) (Nat.lt_of_le_of_lt (Nat.sub_le _ _) t.isLt)).2 k).trans ?_
  rw [blocks_tileCnt m c t a j ht k]

/-! ## The running contents, by induction on the point -/

/-- Tile j of core a's part of segment sum (k, e), zero outside the grid. -/
def tS (c : Dev nD) (a j : ℕ) (k : Fin 1000) (e : Fin 256) : EReal :=
  if h : a < 2 ∧ j < 25 then tileSum (lab m c) (tb m c) ⟨a, h.1⟩ ⟨j, h.2⟩ k e else 0

/-- Tile j of core a's part of segment count k, zero outside the grid. -/
def tC (c : Dev nD) (a j : ℕ) (k : Fin 1000) : EReal :=
  if h : a < 2 ∧ j < 25 then tileCnt (lab m c) ⟨a, h.1⟩ ⟨j, h.2⟩ k else 0

/-- Inside the grid `tS` is the tile's part. -/
theorem tS_eq (c : Dev nD) (a : Fin 2) (j : Fin 25) (a' j' : ℕ) (ha : a.val = a') (hj : j.val = j') (k : Fin 1000) (e : Fin 256) :
    tileSum (lab m c) (tb m c) a j k e = tS m c a' j' k e := by
  subst ha hj
  rw [tS, dif_pos ⟨a.isLt, j.isLt⟩]

/-- Inside the grid `tC` is the tile's part. -/
theorem tC_eq (c : Dev nD) (a : Fin 2) (j : Fin 25) (a' j' : ℕ) (ha : a.val = a') (hj : j.val = j') (k : Fin 1000) :
    tileCnt (lab m c) a j k = tC m c a' j' k := by
  subst ha hj
  rw [tC, dif_pos ⟨a.isLt, j.isLt⟩]

/-- After point n the sums accumulator holds the parts of tiles 0 … n mod 25 of core n div 25. -/
theorem sums_run (c : Dev nD) : ∀ (n : ℕ) (h : n < cfg0.N) (k : Fin 1000) (e : Fin 256),
    ((outsAt0 m c n h).1 : Vec Ideal S1x1000x256 .f32) (ix3 (0 : Fin 1) k e)
      = ∑ j ∈ Finset.range (n % 25 + 1), tS m c (n / 25) j k e := by
  have hN : cfg0.N = 50 := N_0
  intro n
  induction n with
  | zero =>
    intro h k e
    have := sums_first m c ⟨0, h⟩ 0 0 rfl rfl k e
    refine this.trans ?_
    simp [tS]
  | succ n ih =>
    intro h k e
    have hn : n + 1 < 50 := hN ▸ h
    by_cases h0 : (n + 1) % 25 = 0
    · have := sums_first m c ⟨n + 1, h⟩ ⟨(n + 1) / 25, by omega⟩ 0 (by dsimp only; omega) h0 k e
      refine this.trans ?_
      rw [h0, Finset.sum_range_one]
      exact tS_eq m c _ _ _ _ rfl rfl k e
    · have := sums_later m c ⟨n + 1, h⟩ ⟨(n + 1) / 25, by omega⟩ ⟨(n + 1) % 25, by omega⟩ (by dsimp only; omega) h0 k e
      refine this.trans ?_
      have hp : ((outsAt0 m c ((⟨n + 1, h⟩ : Fin cfg0.N).val - 1) (Nat.lt_of_le_of_lt (Nat.sub_le _ _) (⟨n + 1, h⟩ : Fin cfg0.N).isLt)).1 : Vec Ideal S1x1000x256 .f32) (ix3 (0 : Fin 1) k e)
          = ((outsAt0 m c n (Nat.lt_of_succ_lt h)).1 : Vec Ideal S1x1000x256 .f32) (ix3 (0 : Fin 1) k e) := rfl
      have e1 : (n + 1) / 25 = n / 25 := by omega
      have e2 : (n + 1) % 25 = n % 25 + 1 := by omega
      rw [hp, ih (Nat.lt_of_succ_lt h) k e,
        tS_eq m c (⟨(n + 1) / 25, by omega⟩ : Fin 2) (⟨(n + 1) % 25, by omega⟩ : Fin 25) (n / 25) (n % 25 + 1) e1 e2 k e,
        e2, e1]
      exact (Finset.sum_range_succ (fun j => tS m c (n / 25) j k e) (n % 25 + 1)).symm

/-- After point n the counts accumulator holds the parts of tiles 0 … n mod 25 of core n div 25. -/
theorem cnts_run (c : Dev nD) : ∀ (n : ℕ) (h : n < cfg0.N) (k : Fin 1000),
    ((outsAt0 m c n h).2 : Vec Ideal S1x1x1000 .f32) (ix3 (0 : Fin 1) (0 : Fin 1) k)
      = ∑ j ∈ Finset.range (n % 25 + 1), tC m c (n / 25) j k := by
  have hN : cfg0.N = 50 := N_0
  intro n
  induction n with
  | zero =>
    intro h k
    have := cnts_first m c ⟨0, h⟩ 0 0 rfl rfl k
    refine this.trans ?_
    simp [tC]
  | succ n ih =>
    intro h k
    have hn : n + 1 < 50 := hN ▸ h
    by_cases h0 : (n + 1) % 25 = 0
    · have := cnts_first m c ⟨n + 1, h⟩ ⟨(n + 1) / 25, by omega⟩ 0 (by dsimp only; omega) h0 k
      refine this.trans ?_
      rw [h0, Finset.sum_range_one]
      exact tC_eq m c _ _ _ _ rfl rfl k
    · have := cnts_later m c ⟨n + 1, h⟩ ⟨(n + 1) / 25, by omega⟩ ⟨(n + 1) % 25, by omega⟩ (by dsimp only; omega) h0 k
      refine this.trans ?_
      have hp : ((outsAt0 m c ((⟨n + 1, h⟩ : Fin cfg0.N).val - 1) (Nat.lt_of_le_of_lt (Nat.sub_le _ _) (⟨n + 1, h⟩ : Fin cfg0.N).isLt)).2 : Vec Ideal S1x1x1000 .f32) (ix3 (0 : Fin 1) (0 : Fin 1) k)
          = ((outsAt0 m c n (Nat.lt_of_succ_lt h)).2 : Vec Ideal S1x1x1000 .f32) (ix3 (0 : Fin 1) (0 : Fin 1) k) := rfl
      have e1 : (n + 1) / 25 = n / 25 := by omega
      have e2 : (n + 1) % 25 = n % 25 + 1 := by omega
      rw [hp, ih (Nat.lt_of_succ_lt h) k,
        tC_eq m c (⟨(n + 1) / 25, by omega⟩ : Fin 2) (⟨(n + 1) % 25, by omega⟩ : Fin 25) (n / 25) (n % 25 + 1) e1 e2 k,
        e2, e1]
      exact (Finset.sum_range_succ (fun j => tC m c (n / 25) j k) (n % 25 + 1)).symm

/-! ## The two result arrays -/

/-- The output windows' block indices, decided over the grid: slab n div 25, the whole slab. -/
theorem idx_facts : ∀ t : Fin cfg0.N, win0_2.index t (0 : Fin 3) = t.val / 25 ∧ win0_2.index t (1 : Fin 3) = 0
    ∧ win0_2.index t (2 : Fin 3) = 0 ∧ win0_3.index t (0 : Fin 3) = t.val / 25 ∧ win0_3.index t (1 : Fin 3) = 0
    ∧ win0_3.index t (2 : Fin 3) = 0 :=
  (by decide +kernel : ∀ t : Fin grid0.N, _)

/-- The sums array's contents after the run: slab a holds core a's 25 parts. -/
def G2 (c : Dev nD) : FVec Ideal S2x1000x256 .f32 := fun i =>
  ∑ j ∈ Finset.range 25, tS m c (i 0).val j ⟨(i 1).val, (i 1).isLt⟩ ⟨(i 2).val, (i 2).isLt⟩

/-- The counts array's contents after the run. -/
def G3 (c : Dev nD) : FVec Ideal S2x1x1000 .f32 := fun i =>
  ∑ j ∈ Finset.range 25, tC m c (i 0).val j ⟨(i 2).val, (i 2).isLt⟩

/-- What a core's last point writes back is its slab of the sums. -/
theorem flushed2 (c : Dev nD) (t : Fin cfg0.N) (hf : (cfg0.win 2).flush t = true) :
    (dats m 0 c).flushed 2 t = ((cfg0.win 2).blk t).view.read (Elt Ideal) (G2 m c) := by
  have h24 : t.val % 25 = 24 := (flush0_2 t).mp hf
  obtain ⟨i0, i1, i2, -, -, -⟩ := idx_facts t
  show (cfg0.win 2).cut (grid0.coords t) ((dats m 0 c).after 2 t) = _
  rw [after0_2]
  funext y
  obtain ⟨u, k, e, rfl⟩ : ∃ (u : Fin 1) (k : Fin 1000) (e : Fin 256), y = ix3 u k e := ⟨y 0, y 1, y 2, eq_ix3 y⟩
  obtain rfl : u = 0 := Subsingleton.elim _ _
  rw [View.read_apply]
  show ((outsAt0 m c t.val t.isLt).1 : Vec Ideal S1x1000x256 .f32) (ix3 (0 : Fin 1) k e)
    = G2 m c (((cfg0.win 2).blk t).view.emb (ix3 (0 : Fin 1) k e))
  rw [sums_run m c t.val t.isLt k e, h24]
  unfold G2
  have ha : ((((cfg0.win 2).blk t).view.emb (ix3 (0 : Fin 1) k e)) 0).val = t.val / 25 := by
    show win0_2.index t (0 : Fin 3) * 1 + 1 * 0 = t.val / 25
    omega
  have hk : (⟨((((cfg0.win 2).blk t).view.emb (ix3 (0 : Fin 1) k e)) 1).val, ((((cfg0.win 2).blk t).view.emb (ix3 (0 : Fin 1) k e)) 1).isLt⟩ : Fin 1000) = k := by
    apply Fin.ext
    show win0_2.index t (1 : Fin 3) * 1000 + 1 * k.val = k.val
    omega
  have he : (⟨((((cfg0.win 2).blk t).view.emb (ix3 (0 : Fin 1) k e)) 2).val, ((((cfg0.win 2).blk t).view.emb (ix3 (0 : Fin 1) k e)) 2).isLt⟩ : Fin 256) = e := by
    apply Fin.ext
    show win0_2.index t (2 : Fin 3) * 256 + 1 * e.val = e.val
    omega
  rw [ha, hk, he]

/-- What a core's last point writes back is its slab of the counts. -/
theorem flushed3 (c : Dev nD) (t : Fin cfg0.N) (hf : (cfg0.win 3).flush t = true) :
    (dats m 0 c).flushed 3 t = ((cfg0.win 3).blk t).view.read (Elt Ideal) (G3 m c) := by
  have h24 : t.val % 25 = 24 := (flush0_3 t).mp hf
  obtain ⟨-, -, -, i0, i1, i2⟩ := idx_facts t
  show (cfg0.win 3).cut (grid0.coords t) ((dats m 0 c).after 3 t) = _
  rw [after0_3]
  funext y
  obtain ⟨u, v, k, rfl⟩ : ∃ (u : Fin 1) (v : Fin 1) (k : Fin 1000), y = ix3 u v k := ⟨y 0, y 1, y 2, eq_ix3 y⟩
  obtain rfl : u = 0 := Subsingleton.elim _ _
  obtain rfl : v = 0 := Subsingleton.elim _ _
  rw [View.read_apply]
  show ((outsAt0 m c t.val t.isLt).2 : Vec Ideal S1x1x1000 .f32) (ix3 (0 : Fin 1) (0 : Fin 1) k)
    = G3 m c (((cfg0.win 3).blk t).view.emb (ix3 (0 : Fin 1) (0 : Fin 1) k))
  rw [cnts_run m c t.val t.isLt k, h24]
  unfold G3
  have ha : ((((cfg0.win 3).blk t).view.emb (ix3 (0 : Fin 1) (0 : Fin 1) k)) 0).val = t.val / 25 := by
    show win0_3.index t (0 : Fin 3) * 1 + 1 * 0 = t.val / 25
    omega
  have hk : (⟨((((cfg0.win 3).blk t).view.emb (ix3 (0 : Fin 1) (0 : Fin 1) k)) 2).val, ((((cfg0.win 3).blk t).view.emb (ix3 (0 : Fin 1) (0 : Fin 1) k)) 2).isLt⟩ : Fin 1000) = k := by
    apply Fin.ext
    show win0_3.index t (2 : Fin 3) * 1000 + 1 * k.val = k.val
    omega
  rw [ha, hk]

/-- Every entry of the sums array is in the slab some core's last point writes back. -/
theorem cover2 (i : S2x1000x256.Idx) :
    ∃ t : Fin cfg0.N, (cfg0.win 2).flush t = true ∧ i ∈ ((cfg0.win 2).blk t).view.set := by
  have hN : cfg0.N = 50 := N_0
  have h0 : (i 0).val < 2 := (i 0).isLt
  have h1 : (i 1).val < 1000 := (i 1).isLt
  have h2 : (i 2).val < 256 := (i 2).isLt
  let t : Fin cfg0.N := ⟨25 * (i 0).val + 24, by omega⟩
  obtain ⟨i0, i1, i2, -, -, -⟩ := idx_facts t
  have tv : t.val = 25 * (i 0).val + 24 := rfl
  refine ⟨t, (flush0_2 t).mpr (by omega), ?_⟩
  show i ∈ ((View.whole main_call0_v31_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1000 ≤ (i 1).val ∧ (i 1).val < win0_2.index t (1 : Fin 3) * 1000 + 1000; omega
  | ⟨2, _⟩ => show win0_2.index t (2 : Fin 3) * 256 ≤ (i 2).val ∧ (i 2).val < win0_2.index t (2 : Fin 3) * 256 + 256; omega

/-- Every entry of the counts array is in the slab some core's last point writes back. -/
theorem cover3 (i : S2x1x1000.Idx) :
    ∃ t : Fin cfg0.N, (cfg0.win 3).flush t = true ∧ i ∈ ((cfg0.win 3).blk t).view.set := by
  have hN : cfg0.N = 50 := N_0
  have h0 : (i 0).val < 2 := (i 0).isLt
  have h1 : (i 1).val < 1 := (i 1).isLt
  have h2 : (i 2).val < 1000 := (i 2).isLt
  let t : Fin cfg0.N := ⟨25 * (i 0).val + 24, by omega⟩
  obtain ⟨-, -, -, i0, i1, i2⟩ := idx_facts t
  have tv : t.val = 25 * (i 0).val + 24 := rfl
  refine ⟨t, (flush0_3 t).mpr (by omega), ?_⟩
  show i ∈ ((View.whole main_call0_v31_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1000 ≤ (i 2).val ∧ (i 2).val < win0_3.index t (2 : Fin 3) * 1000 + 1000; omega

/-- The sums array after the region: slab a holds core a's 25 tiles' parts of the segment sums. -/
theorem final_sums (c : Dev nD) (a : Fin 2) (k : Fin 1000) (e : Fin 256) :
    ((dats m 0 c).arrAt 2 cfg0.N : FVec Ideal S2x1000x256 .f32) (ix3 a k e)
      = ∑ j : Fin 25, tileSum (lab m c) (tb m c) a j k e := by
  rw [(dats m 0 c).arrAt_eq_of_cover 2 (G2 m c) (flushed2 m c) (cover2)]
  show ∑ j ∈ Finset.range 25, tS m c a.val j k e = _
  rw [Finset.sum_range]
  exact Finset.sum_congr rfl fun j _ => (tS_eq m c a j a.val j.val rfl rfl k e).symm

/-- The counts array after the region: slab a holds core a's 25 tiles' parts of the segment counts. -/
theorem final_cnts (c : Dev nD) (a : Fin 2) (k : Fin 1000) :
    ((dats m 0 c).arrAt 3 cfg0.N : FVec Ideal S2x1x1000 .f32) (ix3 a (0 : Fin 1) k)
      = ∑ j : Fin 25, tileCnt (lab m c) a j k := by
  rw [(dats m 0 c).arrAt_eq_of_cover 3 (G3 m c) (flushed3 m c) (cover3)]
  show ∑ j ∈ Finset.range 25, tC m c a.val j k = _
  rw [Finset.sum_range]
  exact Finset.sum_congr rfl fun j _ => (tC_eq m c a j a.val j.val rfl rfl k).symm

end Cert.KernelIdeal.KAccum

end
-- ==== Proof.LibScatterAddRows.lean ====
/-
  A row-wise accumulating scatter read at an entry, at the ideal values.

  The host's accumulating scatter of an [N, D] array of update rows into a [C, D] operand by an [N, 1] column of row
  indices (the update's second axis the window, the operand's first axis inserted and scattered to, the index vector
  on the indices' second axis) sends update row n whole to operand row idx(n), the index word read as a signed integer and
  not clamped; a row whose index is below 0 or not below C is dropped. So entry (k, e) of the result is the operand's
  entry plus the sum over the rows n of: update entry (n, e) when idx(n) is k, zero otherwise. The scatter of an [N]
  vector of updates into a [C] operand by the same column of indices reads the same way at entry k.

  The road: an update index lands at a given operand index exactly when, on every operand axis, the window's start plus
  the window coordinate is that index's coordinate (`resultIdx?_eq_some_iff`, for any dimension numbers). For these
  dimension numbers the start is the index word on the scattered axis and zero on the window axis, and the window
  coordinate is zero on the inserted axis and the update's column on the window axis; so update (n, e') lands at (k, e)
  exactly when idx(n) reads k and e' is e. The filtered sum over the update indices is then the double sum over rows and
  columns of an `if`, and the inner sum over the columns has one term.
-/
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

/-- An update index lands at i exactly when, on every operand axis, the window's start plus the window coordinate is
    i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

/-- The index word an update row reads: the column of indices at (row, 0). -/
private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the row's index word, read signed. -/
private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

/-- On the window axis the window starts at zero. -/
private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

/-- The inserted axis has window coordinate zero. -/
private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

/-- The window axis has the update's column as window coordinate. -/
private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

/-- Update index j lands at (k, e) exactly when its row's index word reads k and its column is e. -/
theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

/-- The index word an update reads: the column of indices at (its position, 0). -/
private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the operand's one axis the window starts at the update's index word, read signed. -/
private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

/-- The operand's one axis is inserted: its window coordinate is zero. -/
private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

/-- Update index j lands at k exactly when its index word reads k. -/
theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

/-- Rows of width D accumulated into a [C, D] operand by an [N, 1] column of row indices, read at (k, e). -/
theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

/-- Scalars accumulated into a [C] operand by an [N, 1] column of indices, read at k. -/
theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.RefSeg.lean ====
/-
  The reference's cluster means read at an entry, over the extended reals.

  The reference accumulates the updated table's rows into the zero [1000, 256] array by their labels, and a vector
  of ones into the zero [1000] vector by the same labels: entry (k, e) of the first is the segment sum of the
  table, entry k of the second the segment count. Its third result selects, where a cluster was touched, the
  quotient of the sum by the larger of the count and one, and the old mean elsewhere.

  The road: each accumulating scatter read at an entry is the operand's entry (zero) plus the sum over the rows of the
  update when the row's label word reads the entry's cluster (the general lemma on a column of row indices); an
  `if` with value u or zero is the weight `hot` times u, and with value one or zero is the weight itself. The third
  result is read through its elementwise and broadcast stages down to the two accumulations.
-/
import proofs.«421042_j68444598829641_3_alg».proof.Proof.RefRead
import proofs.«421042_j68444598829641_3_alg».proof.Proof.SegSpec
import proofs.«421042_j68444598829641_3_alg».proof.Proof.LibScatterAddRows
import Idealize.ShloMosaic.PureOps.Ideal.Laws
import Idealize.ShloMosaic.Lib.ValueIdx

noncomputable section

open scoped BigOperators
open Idealize.ShloMosaic Idealize.ShloMosaic.ValueIdx

namespace Cert.ReferenceIdeal.RefSeg

open Cert.ReferenceIdeal Cert.ReferenceIdeal.ReadP Cert.SegSpec Idealize.ShloMosaic.ScatterAddRows

/-- The f32 word of one denotes the extended real one. -/
theorem f32_one_word : FloatOps.ofBits (F := Ideal) .f32 0x3F800000#32 = (1 : EReal) := by
  rw [Ideal.ofBits_def]
  simp [Ideal.ofBits, Ideal.ieee, -EReal.coe_mul]; norm_num

/-- The f32 word of zero denotes the extended real zero. -/
theorem f32_zero_word : FloatOps.ofBits (F := Ideal) .f32 0x00000000#32 = (0 : EReal) := by
  rw [Ideal.ofBits_def, Ideal.ofBits_zero_f32]

/-- The column of labels at (n, 0) is label n (the sum's accumulation). -/
theorem idx_v30 (n : Fin 200000) : idx_main_v30 (ix2 n (0 : Fin 1)) = ix1 n := by
  funext a; match a with | ⟨0, _⟩ => rfl

/-- The column of labels at (n, 0) is label n (the count's accumulation). -/
theorem idx_v34 (n : Fin 200000) : idx_main_v34 (ix2 n (0 : Fin 1)) = ix1 n := by
  funext a; match a with | ⟨0, _⟩ => rfl

/-- The reference's accumulated rows are the segment sums of the updated table under the labels. -/
theorem v31_apply (x0 : FVec Ideal S256x256 .f32) (x1 : FVec Ideal S200000x256 .f32) (x3 : IVec S256 32) (x4 : IVec S200000 32)
    (k : Fin 1000) (e : Fin 256) :
    val_main_v31 (F := Ideal) x0 x1 x3 x4 (ix2 k e)
      = segSum (fun n => x4 (ix1 n)) (fun n e => val_main_v28 (F := Ideal) x0 x1 x3 (ix2 n e)) k e := by
  unfold val_main_v31
  generalize val_main_v28 (F := Ideal) x0 x1 x3 = U
  unfold Host.scatterAdd
  rw [Ideal.hostScatterAdd_def]
  refine (scatterAdd_rows_apply _ _ _ _ k e).trans ?_
  rw [val_main_v29_apply, val_main_cst_6_apply, f32_zero_word, zero_add]
  simp only [segSum, hot, ite_mul, one_mul, zero_mul]
  refine Finset.sum_congr rfl fun n _ => ?_
  rw [val_main_v30_apply, idx_v30]

/-- The reference's accumulated ones are the segment counts under the labels. -/
theorem v35_apply (x4 : IVec S200000 32) (k : Fin 1000) :
    val_main_v35 (F := Ideal) x4 (ix1 k) = segCnt (fun n => x4 (ix1 n)) k := by
  unfold val_main_v35 Host.scatterAdd
  rw [Ideal.hostScatterAdd_def]
  refine (scatterAdd_vec_apply _ _ _ _ k).trans ?_
  rw [val_main_v33_apply, val_main_cst_8_apply, f32_zero_word, zero_add]
  simp only [segCnt, hot]
  refine Finset.sum_congr rfl fun n _ => ?_
  rw [val_main_v34_apply, idx_v34, val_main_v32_apply, val_main_cst_7_apply, f32_one_word]

/-- The reference's third result at (k, e). -/
theorem v51_apply (x0 : FVec Ideal S256x256 .f32) (x1 : FVec Ideal S200000x256 .f32) (x2 : FVec Ideal S1000x256 .f32)
    (x3 : IVec S256 32) (x4 : IVec S200000 32) (x5 : IVec S256 32) (k : Fin 1000) (e : Fin 256) :
    val_main_v51 (F := Ideal) x0 x1 x2 x3 x4 x5 (ix2 k e)
      = Scalar.select (val_main_call0_v0 (F := Ideal) x5 (ix2 k e))
          (FloatOps.hostDivf (F := Ideal) (φ := .f32)
            (segSum (fun n => x4 (ix1 n)) (fun n e => val_main_v28 (F := Ideal) x0 x1 x3 (ix2 n e)) k e)
            (FloatOps.maximumf (F := Ideal) (φ := .f32) (segCnt (fun n => x4 (ix1 n)) k) (FloatOps.ofBits .f32 0x3F800000#32)))
          (x2 (ix2 k e)) := by
  have h39 : idx_main_v39 (ix2 k e) = ix2 k (0 : Fin 1) := by
    funext a; match a with | ⟨0, _⟩ => rfl | ⟨1, _⟩ => rfl
  have h38 : idx_main_v38 (ix2 k (0 : Fin 1)) = ix1 k := by
    funext a; match a with | ⟨0, _⟩ => rfl
  rw [val_main_v51_apply, val_main_v40_apply, v31_apply, val_main_v39_apply, h39, val_main_v38_apply, h38,
    val_main_v37_apply, v35_apply, val_main_v36_apply, val_main_cst_9_apply]

end Cert.ReferenceIdeal.RefSeg

end
-- ==== Proof.KRun.lean ====
/-
  The idealized kernel's run, with its three results named as the reference's stages of the same arguments.

  The logits and the updated table are computed before the region by the reference's own operations. The third
  result at (k, e) selects, where cluster k was touched, the two cores' sums added, divided by the larger of the
  two cores' counts added and one; the two cores' sums are the 25 tiles' parts each, and the parts of all 50 tiles
  add up to the segment sum of the updated table, the counts likewise: that is the reference's third stage at (k, e).
-/
import proofs.«421042_j68444598829641_3_alg».proof.Proof.Gen.KernelIdeal.Frame
import proofs.«421042_j68444598829641_3_alg».proof.Proof.RefRead
import proofs.«421042_j68444598829641_3_alg».proof.Proof.SegSpec
import proofs.«421042_j68444598829641_3_alg».proof.Proof.KBlocks
import proofs.«421042_j68444598829641_3_alg».proof.Proof.KTail
import proofs.«421042_j68444598829641_3_alg».proof.Proof.KAccum
import proofs.«421042_j68444598829641_3_alg».proof.Proof.RefSeg
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.KernelIdeal.KRun

open Cert.KernelIdeal Cert.KernelIdeal.Gen Cert.SegSpec

variable (m : (ℓ : Loc nD τ sig) → Buf (Elt Ideal) ℓ) (ρ : Dev nD → PrngReg)

/-- The third result is the reference's third stage of the same arguments. -/
theorem means_eq (c : Dev nD) :
    (Pipeline.afterTail₀ cfgs (dats m) 0 (V0 m) [hostOps1] c main_v0_2 : FVec Ideal S1000x256 .f32)
      = Cert.ReferenceIdeal.ReadP.val_main_v51 (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  funext i
  obtain ⟨k, e, rfl⟩ : ∃ (k : Fin 1000) (e : Fin 256), i = ix2 k e := ⟨i 0, i 1, eq_ix2 i⟩
  rw [KTail.tail_means_apply m c k e, Cert.ReferenceIdeal.RefSeg.v51_apply]
  dsimp only [KTail.sums2, KTail.cnts2]
  rw [KAccum.final_sums m c 0 k e, KAccum.final_sums m c 1 k e, KAccum.final_cnts m c 0 k, KAccum.final_cnts m c 1 k,
    ← segSum_eq_tiles, ← segCnt_eq_tiles]

/-- Every weakly fair execution ends with the three results at the reference's stages and the arguments unchanged. -/
theorem run : θ_run defs (onTc (τ := τ) (main (F := Ideal))) ⟨m, fun _ => 0, ρ⟩ (fun r => ∀ c : Dev nD,
      r.2.mem ((c.tc : Thread nD τ).loc main_v0_0)
        = Cert.ReferenceIdeal.ReadP.val_main_v1 (F := Ideal) (m ((c.tc : Thread nD τ).loc main_arg0)) (m ((c.tc : Thread nD τ).loc main_arg2))
      ∧ r.2.mem ((c.tc : Thread nD τ).loc main_v0_1)
        = Cert.ReferenceIdeal.ReadP.val_main_v28 (F := Ideal) (m ((c.tc : Thread nD τ).loc main_arg0)) (m ((c.tc : Thread nD τ).loc main_arg1)) (m ((c.tc : Thread nD τ).loc main_arg3))
      ∧ r.2.mem ((c.tc : Thread nD τ).loc main_v0_2)
        = Cert.ReferenceIdeal.ReadP.val_main_v51 (F := Ideal) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v0_0 (Pipeline.mem_restRefs_of main_v0_0 (by decide) (by decide))).trans
        ((KTail.tail_logits m c).trans (KBlocks.V_logits m c)),
      ((h c).2 main_v0_1 (Pipeline.mem_restRefs_of main_v0_1 (by decide) (by decide))).trans
        ((KTail.tail_table m c).trans (KBlocks.V_table m c)),
      ((h c).2 main_v0_2 (Pipeline.mem_restRefs_of main_v0_2 (by decide) (by decide))).trans (means_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KRun

end
-- ==== Proof.lean ====
/-
  The kernel recomputes cluster means after a momentum update of a memory bank: it returns the logits of the
  inputs against the old means, the table with 256 rows replaced by their renormalized momentum updates, and, for
  the clusters touched, the mean of the updated table's rows with that cluster's label. The first two results and
  the touched mask are computed on the host by the reference's own operations. The segment sums and counts the
  reference takes by an accumulating scatter over the labels, the kernel by a 0/1 label matrix multiplied into the
  rows, tile by tile on two cores whose partial sums the host adds; over the extended reals both are the sum, over
  the rows whose label is k, of the row's entry (of ones, for the count), since a weight of zero times any entry
  is zero and addition there is commutative and associative: no finiteness of the inputs is used.
  The three frames are the generated ones (the reference's is its run with the results dropped); nothing was
  rewritten by the idealization, so it has nothing to preserve.
-/
import proofs.«421042_j68444598829641_3_alg».proof.Defs
import proofs.«421042_j68444598829641_3_alg».proof.Proof.Gen.Kernel
import proofs.«421042_j68444598829641_3_alg».proof.Proof.Gen.Kernel.Frame
import proofs.«421042_j68444598829641_3_alg».proof.Proof.Gen.KernelIdeal
import proofs.«421042_j68444598829641_3_alg».proof.Proof.Gen.KernelIdeal.Frame
import proofs.«421042_j68444598829641_3_alg».proof.Proof.Gen.ReferenceIdeal
import proofs.«421042_j68444598829641_3_alg».proof.Proof.RefRead
import proofs.«421042_j68444598829641_3_alg».proof.Proof.Gen.Pre_finite_inputs
import proofs.«421042_j68444598829641_3_alg».proof.Proof.KRun
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.RunP.run (F := Ideal) m ρ)

/-- Both programs end, from memories agreeing on the arguments, with the reference's three stages of those arguments. -/
theorem algebraic : Cert.algebraic_KernelIdeal_ReferenceIdeal := by
  intro m ρ m' ρ' _ hagree
  refine ⟨fun c => Cert.ReferenceIdeal.ReadP.val_main_v1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => Cert.ReferenceIdeal.ReadP.val_main_v28 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    fun c => Cert.ReferenceIdeal.ReadP.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KRun.run m ρ, ?_⟩
  refine (θ_run Cert.ReferenceIdeal.defs _ _).mono (fun _ h c => ?_) (Cert.ReferenceIdeal.RunP.run (F := Ideal) m' ρ')
  obtain ⟨h0, h1, h2, h3, h4, h5⟩ := hagree c
  refine ⟨(h c).1.trans ?_, (h c).2.1.trans ?_, (h c).2.2.1.trans ?_, (h c).2.2.2⟩
  · rw [Cert.ReferenceIdeal.ReadP.val_main_v1_eq, h0, h2]
  · show _ = Cert.ReferenceIdeal.ReadP.val_main_v28 (F := Ideal) _ _ _
    rw [← h0, ← h1, ← h3]
    exact Cert.ReferenceIdeal.ReadP.val_main_v28_eq _ _ _
  · rw [Cert.ReferenceIdeal.ReadP.val_main_v51_eq, h0, h1, h2, h3, h4, h5]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
